-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S4096x1 : Shape := ⟨2, ![4096, 1]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_

variable [Facts]

def fn_part1 {F : FTy → Type} [FloatOps F] (main_arg4 : FVec F S4096x1 .f32) (main_v13 : IVec S_ 1) (main_v16 : IVec S4096x1 1) : IVec S_ 1 :=
  let main_c_5 : IVec S_ 1 := constantI S_ 1 1#1
  let main_v17 : IVec S_ 1 := (fun x v => Host.reduce IntOp.andi x v reducesTo_S4096x1_S_d0_1 h_S_) main_v16 main_c_5
  let main_v18 : IVec S_ 1 := andi main_v13 main_v17
  let main_v19 : FVec F S4096x1 .f32 := Host.absf main_arg4
  let main_cst_6 : FVec F S_ .f32 := constant S_ .f32 0x7F800000#32
  let main_v20 : FVec F S4096x1 .f32 := broadcastInDim S4096x1 ![] bcast_S_S4096x1 main_cst_6
  let main_v21 : IVec S4096x1 1 := cmpf .olt main_v19 main_v20
  let main_c_7 : IVec S_ 1 := constantI S_ 1 1#1
  let main_v22 : IVec S_ 1 := (fun x v => Host.reduce IntOp.andi x v reducesTo_S4096x1_S_d0_1 h_S_) main_v21 main_c_7
  let main_v23 : IVec S_ 1 := andi main_v18 main_v22
  main_v23

def fn {F : FTy → Type} [FloatOps F] (main_arg0 : FVec F S4096x16384 .f32) (main_arg1 : FVec F S4096x1 .f32) (main_arg2 : FVec F S4096x1 .f32) (main_arg3 : FVec F S4096x1 .f32) (main_arg4 : FVec F S4096x1 .f32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  let main_v4 : FVec F S4096x1 .f32 := Host.absf main_arg1
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096x1 .f32 := Host.absf main_arg3
  let main_cst_4 : FVec F S_ .f32 := constant S_ .f32 0x7F800000#32
  let main_v15 : FVec F S4096x1 .f32 := broadcastInDim S4096x1 ![] bcast_S_S4096x1 main_cst_4
  let main_v16 : IVec S4096x1 1 := cmpf .olt main_v14 main_v15
  fn_part1 (F := F) main_arg4 main_v13 main_v16
-- ==== Kernel.lean ====
abbrev S4096x16384 : Shape := ⟨2, ![4096, 16384]⟩
abbrev S4096x1 : Shape := ⟨2, ![4096, 1]⟩
abbrev S256x2048 : Shape := ⟨2, ![256, 2048]⟩
abbrev S256x1 : Shape := ⟨2, ![256, 1]⟩
abbrev S256 : Shape := ⟨1, ![256]⟩

abbrev nBuf : Space → Nat
  | .hbm => 7
  | .vmem => 20
  | .smem => 0
  | _ => 0

abbrev bufTy : (tb : Table) → Fin (tcTables nBuf tb) → BufTy
  | .hbm, ⟨0, _⟩ => ⟨S4096x16384, .f32⟩
  | .hbm, ⟨1, _⟩ => ⟨S4096x1, .f32⟩
  | .hbm, ⟨2, _⟩ => ⟨S4096x1, .f32⟩
  | .hbm, ⟨3, _⟩ => ⟨S4096x1, .f32⟩
  | .hbm, ⟨4, _⟩ => ⟨S4096x1, .f32⟩
  | .hbm, ⟨5, _⟩ => ⟨S4096x1, .f32⟩
  | .hbm, ⟨6, _⟩ => ⟨S4096x1, .f32⟩
  | .local _ .vmem, ⟨0, _⟩ => ⟨S256x2048, .f32⟩
  | .local _ .vmem, ⟨1, _⟩ => ⟨S256x2048, .f32⟩
  | .local _ .vmem, ⟨2, _⟩ => ⟨S256x1, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | .local _ .vmem, ⟨13, _⟩ => ⟨S256x1, .f32⟩
  | .local _ .vmem, ⟨14, _⟩ => ⟨S256x1, .f32⟩
  | .local _ .vmem, ⟨15, _⟩ => ⟨S256x1, .f32⟩
  | .local _ .vmem, ⟨16, _⟩ => ⟨S256x1, .f32⟩
  | .local _ .vmem, ⟨17, _⟩ => ⟨S256x1, .f32⟩
  | .local _ .vmem, ⟨18, _⟩ => ⟨S256x1, .f32⟩
  | .local _ .vmem, ⟨19, _⟩ => ⟨S256x1, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v66 : BitVec 1 := Scalar.cmpi .eq arg1 c7_i32
  let v67 : BitVec 32 := Scalar.extui v66
  let c0_i32_39 : BitVec 32 := 0#32
  let v68 : BitVec 1 := Scalar.cmpi .ne v67 c0_i32_39
  v68

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x2048_S256x2048_0_0 : ∀ a, (![0, 0] : Fin 2 → Nat) a + S256x2048.size a ≤ S256x2048.size a
  h_S256x2048 : 0 < S256x2048.numel
  broadcasts_S256x1_S256x2048 : S256x1.Broadcasts S256x2048
  reduces_S256x2048_S256 : S256x2048.Reduces [1] S256
  shapeCasts_S256_S256x1 : S256.ShapeCasts S256x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x16384.size a
  hwx0_0 : ∀ i : grid0.Coords, EltTy.bits .f32 = 32 ∨ (Rect.block (s := S4096x16384) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S4096x1.size a
  hwx0_1 : ∀ i : grid0.Coords, EltTy.bits .f32 = 32 ∨ (Rect.block (s := S4096x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S4096x1.size a
  hwx0_3 : ∀ i : grid0.Coords, EltTy.bits .f32 = 32 ∨ (Rect.block (s := S4096x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4096x1.size a
  hwx0_4 : ∀ i : grid0.Coords, EltTy.bits .f32 = 32 ∨ (Rect.block (s := S4096x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S4096x1.size a
  hwx0_5 : ∀ i : grid0.Coords, EltTy.bits .f32 = 32 ∨ (Rect.block (s := S4096x1) S256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S4096x1.size a
  hwx0_6 : ∀ i : grid0.Coords, EltTy.bits .f32 = 32 ∨ (Rect.block (s := S4096x1) S256x1.size (cc0_transform_6 i) (hinb0_6 i)).WholeWords (EltTy.packing .f32)

variable [Facts₀]

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S256x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S256x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4096x16384 : Shape := ⟨2, ![4096, 16384]⟩
abbrev S4096x1 : Shape := ⟨2, ![4096, 1]⟩
abbrev S_ : Shape := ⟨0, ![]⟩
abbrev S4096 : Shape := ⟨1, ![4096]⟩

abbrev nBuf : Space → Nat
  | .hbm => 87
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S4096x1, .f32⟩
  | .hbm, ⟨2, _⟩ => ⟨S4096x1, .f32⟩
  | .hbm, ⟨3, _⟩ => ⟨S4096x1, .f32⟩
  | .hbm, ⟨4, _⟩ => ⟨S4096x1, .f32⟩
  | .hbm, ⟨5, _⟩ => ⟨S4096x16384, .f32⟩
  | .hbm, ⟨6, _⟩ => ⟨S4096x16384, .f32⟩
  | .hbm, ⟨7, _⟩ => ⟨S4096x16384, .f32⟩
  | .hbm, ⟨8, _⟩ => ⟨S4096x16384, .f32⟩
  | .hbm, ⟨9, _⟩ => ⟨S4096x16384, .f32⟩
  | .hbm, ⟨10, _⟩ => ⟨S4096x16384, .f32⟩
  | .hbm, ⟨11, _⟩ => ⟨S_, .f32⟩
  | .hbm, ⟨12, _⟩ => ⟨S4096x16384, .f32⟩
  | .hbm, ⟨13, _⟩ => ⟨S4096x16384, .f32⟩
  | .hbm, ⟨14, _⟩ => ⟨S_, .f32⟩
  | .hbm, ⟨15, _⟩ => ⟨S4096x16384, .f32⟩
  | .hbm, ⟨16, _⟩ => ⟨S4096x16384, .f32⟩
  | .hbm, ⟨17, _⟩ => ⟨S_, .f32⟩
  | .hbm, ⟨18, _⟩ => ⟨S4096x16384, .f32⟩
  | .hbm, ⟨19, _⟩ => ⟨S4096x16384, .f32⟩
  | .hbm, ⟨20, _⟩ => ⟨S4096x16384, .f32⟩
  | .hbm, ⟨21, _⟩ => ⟨S4096x16384, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x16384, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S4096x16384, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x16384, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S4096x1, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S4096x1, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096x1, .f32⟩
  | .hbm, ⟨86, _⟩ => ⟨S4096x1, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_10 : Ref sig .tc := ⟨.hbm, 52, rfl⟩
abbrev main_v36 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_12 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_15 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_16 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_17 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]

class Facts₀ : Prop where
  bcast_S4096x1_S4096x16384_0_1 : S4096x1.BroadcastsInDim S4096x16384 (![0, 1] : Fin 2 → Fin S4096x16384.rank)
  bcast_S_S4096x16384 : S_.BroadcastsInDim S4096x16384 (![] : Fin 0 → Fin S4096x16384.rank)
  reducesTo_S4096x16384_S4096_d1 : S4096x16384.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)

variable [Facts₀]

class Facts : Prop extends Facts₀ where

variable [Facts]
-- ==== Proof.Spec.lean ====
/-
  What both programs compute, stated once over the whole argument arrays, index by index, with no program imported.

  For row `r` and column `c` let z = a[r] * x[r,c] + b[r] and s = 1 / (1 + exp (-z)) (the logistic value), s' = s * (1 - s)
  (its derivative in z).  Six quantities are averaged over a row's 16384 columns: s, x * s', s', s * s, s * (x * s') and
  s * s' (`elt`).  With fm, da, db, ff, fa, fb those six row means, the two results at row `r` are
  2 * ((fm - mean[r]) * da + ((ff - fm * fm) - var[r]) * (2 * (fa - fm * da))) and the same with (db, fb) for (da, fa)
  (`grad`).  Every literal is kept as the word the programs spell; none is evaluated here.
-/
import Idealize.ShloMosaic.PureOps.Ideal
import Idealize.ShloMosaic.Lib.ValueIdx

noncomputable section

namespace Cert.RowMoments

open Idealize.ShloMosaic Idealize.ShloMosaic.ValueIdx

/-- The words 1.0, 2.0, 0.0 and 16384.0 as both programs spell them. -/
abbrev one : EReal := Ideal.ofBits .f32 0x3F800000#32
abbrev two : EReal := Ideal.ofBits .f32 0x40000000#32
abbrev zer : EReal := Ideal.ofBits .f32 0x00000000#32
abbrev cols : EReal := Ideal.ofBits .f32 0x46800000#32

/-- The logistic value of the affine form a * x + b. -/
def sg (a x b : EReal) : EReal := Ideal.div one (one + Ideal.exp (-(a * x + b)))

/-- Its derivative in the affine form: s * (1 - s). -/
def sp (a x b : EReal) : EReal := sg a x b * (one - sg a x b)

/-- The six quantities a row averages, numbered as the kernel numbers its accumulators. -/
def elt : Fin 6 → EReal → EReal → EReal → EReal
  | 0 => fun a x b => sg a x b
  | 1 => fun a x b => x * sp a x b
  | 2 => fun a x b => sp a x b
  | 3 => fun a x b => sg a x b * sg a x b
  | 4 => fun a x b => sg a x b * (x * sp a x b)
  | 5 => fun a x b => sg a x b * sp a x b

/-- One result entry from four of a row's means and its `mean` and `var` entries. -/
def grad (fm d ff fd mu v : EReal) : EReal :=
  two * ((fm - mu) * d + ((ff - fm * fm) - v) * (two * (fd - fm * d)))

/-- Row `r`'s mean of quantity `k`, as the host reduction spells it: zero plus the row's sum, over 16384. -/
def rowMean (k : Fin 6) (X : (⟨2, ![4096, 16384]⟩ : Shape).Idx → EReal) (A B : (⟨2, ![4096, 1]⟩ : Shape).Idx → EReal)
    (r : Fin 4096) : EReal :=
  Ideal.div (zer + ∑ c : Fin 16384, elt k (A (ix2 r (0 : Fin 1))) (X (ix2 r c)) (B (ix2 r (0 : Fin 1)))) cols

/-- The first result (the gradient in `a`) and the second (in `b`) at row `r`. -/
def outA (X : (⟨2, ![4096, 16384]⟩ : Shape).Idx → EReal) (A B MU VR : (⟨2, ![4096, 1]⟩ : Shape).Idx → EReal)
    (r : Fin 4096) : EReal :=
  grad (rowMean 0 X A B r) (rowMean 1 X A B r) (rowMean 3 X A B r) (rowMean 4 X A B r)
    (MU (ix2 r (0 : Fin 1))) (VR (ix2 r (0 : Fin 1)))

def outB (X : (⟨2, ![4096, 16384]⟩ : Shape).Idx → EReal) (A B MU VR : (⟨2, ![4096, 1]⟩ : Shape).Idx → EReal)
    (r : Fin 4096) : EReal :=
  grad (rowMean 0 X A B r) (rowMean 2 X A B r) (rowMean 3 X A B r) (rowMean 5 X A B r)
    (MU (ix2 r (0 : Fin 1))) (VR (ix2 r (0 : Fin 1)))

/-- The two result arrays. -/
def resA (X : (⟨2, ![4096, 16384]⟩ : Shape).Idx → EReal) (A B MU VR : (⟨2, ![4096, 1]⟩ : Shape).Idx → EReal) :
    (⟨2, ![4096, 1]⟩ : Shape).Idx → EReal := fun i => outA X A B MU VR (i 0)

def resB (X : (⟨2, ![4096, 16384]⟩ : Shape).Idx → EReal) (A B MU VR : (⟨2, ![4096, 1]⟩ : Shape).Idx → EReal) :
    (⟨2, ![4096, 1]⟩ : Shape).Idx → EReal := fun i => outB X A B MU VR (i 0)

end Cert.RowMoments

end
-- ==== Proof.LibColumn.lean ====
/-
  Column forms of two layout operations, read at an index (general in the sizes).

  A vector of `a` entries cast to an `[a, 1]` column and back, and a column broadcast along a new minor
  axis of extent `b`: what a sum with its reduced axis kept, or a per-row value spread over the lanes,
  prints. Each reads the operand at the row's index.
-/
import Idealize.ShloMosaic.Lib.Pipeline.Value
import Idealize.ShloMosaic.Lib.ValueIdx

namespace Idealize.ShloMosaic.ValueLayout

open Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(i, l)`, the operand at `(i, 0)`, for `1 < a`. -/
theorem broadcastTo_a1_ab_apply {a b : ℕ} (ha : a ≠ 1) (v : (⟨2, ![a, 1]⟩ : Shape).Idx → α)
    (h : (⟨2, ![a, 1]⟩ : Shape).Broadcasts ⟨2, ![a, b]⟩) (i : Fin a) (l : Fin b) :
    broadcastTo ⟨2, ![a, b]⟩ v h (ix2 i l) = v (ix2 i (0 : Fin 1)) :=
  broadcastTo_apply v h _ _ (fun d => by
    match d with
    | ⟨0, _⟩ => show i.val = if a = 1 then 0 else i.val; rw [if_neg ha]
    | ⟨1, _⟩ => show (0 : ℕ) = if (1 : ℕ) = 1 then 0 else l.val; rw [if_pos rfl])

end Idealize.ShloMosaic.ValueLayout
-- ==== Proof.TileValue.lean ====
/-
  The kernel's arithmetic read at an index, at the extended reals.

  A tile of the kernel holds 256 rows by 2048 columns of `x` and the rows' entries of `a` and `b`.  At row `p`,
  column `q` of the tile the body's logistic value is `sg a[p] x[p,q] b[p]` (the kernel negates by subtracting from the
  zero word, which is negation on the extended reals), its derivative `sp`, and the product with `x`; a sum over the
  tile's lanes with the reduced axis kept reads, at row `p`, the sum over the tile's 2048 columns.  The epilogue turns six
  accumulated row sums, scaled by the word 2^-14, and the rows' `mean` and `var` entries into the two results (`grad`).
-/
import proofs.«129264_j5420248727614_1_alg».proof.Proof.Gen.KernelIdeal.Skeleton
import proofs.«129264_j5420248727614_1_alg».proof.Proof.Spec
import proofs.«129264_j5420248727614_1_alg».proof.Proof.LibColumn
import Idealize.ShloMosaic.PureOps.Ideal.Laws

noncomputable section

namespace Cert.KernelIdeal.TileValue

open Idealize.ShloMosaic Idealize.ShloMosaic.ValueIdx Idealize.ShloMosaic.ValueLayout
open Cert.KernelIdeal Cert.KernelIdeal.Gen Cert.RowMoments

/-- The logistic value at row `p`, column `q` of a tile. -/
theorem logistic_apply (x0 : Vec Ideal S256x2048 .f32) (x1 x2 : Vec Ideal S256x1 .f32) (p : Fin 256) (q : Fin 2048) :
    k0_pay15 (F := Ideal) x0 x1 x2 (ix2 p q) = sg (x1 (ix2 p (0 : Fin 1))) (x0 (ix2 p q)) (x2 (ix2 p (0 : Fin 1))) := by
  unfold k0_pay15 sg
  show Ideal.div one (one + Ideal.exp (zer - (broadcastTo S256x2048 x1 _ (ix2 p q) * x0 (ix2 p q)
    + broadcastTo S256x2048 x2 _ (ix2 p q)))) = _
  rw [broadcastTo_a1_ab_apply (by decide) x1, broadcastTo_a1_ab_apply (by decide) x2,
    show zer = (0 : EReal) from Ideal.ofBits_zero_f32, zero_sub]

/-- Its derivative there. -/
theorem deriv_apply (x0 : Vec Ideal S256x2048 .f32) (x1 x2 : Vec Ideal S256x1 .f32) (p : Fin 256) (q : Fin 2048) :
    k0_pay16 (F := Ideal) x0 x1 x2 (ix2 p q) = sp (x1 (ix2 p (0 : Fin 1))) (x0 (ix2 p q)) (x2 (ix2 p (0 : Fin 1))) := by
  unfold k0_pay16 sp
  show k0_pay15 (F := Ideal) x0 x1 x2 (ix2 p q) * (one - k0_pay15 (F := Ideal) x0 x1 x2 (ix2 p q)) = _
  rw [logistic_apply]

/-- The derivative in `a`: `x` times it. -/
theorem xderiv_apply (x0 : Vec Ideal S256x2048 .f32) (x1 x2 : Vec Ideal S256x1 .f32) (p : Fin 256) (q : Fin 2048) :
    k0_pay17 (F := Ideal) x0 x1 x2 (ix2 p q)
      = x0 (ix2 p q) * sp (x1 (ix2 p (0 : Fin 1))) (x0 (ix2 p q)) (x2 (ix2 p (0 : Fin 1))) := by
  unfold k0_pay17
  show x0 (ix2 p q) * k0_pay16 (F := Ideal) x0 x1 x2 (ix2 p q) = _
  rw [deriv_apply]

/-- A lane sum with its reduced axis kept: at row `p` the sum over the tile's columns. -/
theorem laneSum_apply (v : FVec Ideal S256x2048 .f32) (p : Fin 256) (u : Fin 1) :
    shapeCast S256x1 (multiReduction .add [1] S256 v 0x00000000#32 reduces_S256x2048_S256 (.inl rfl) rfl)
        shapeCasts_S256_S256x1 (ix2 p u) = ∑ k : Fin 2048, v (ix2 p k) := by
  rw [shapeCast_a_a1_apply]
  refine (Ideal.multiReduction_add_single v 0x00000000#32 reduces_S256x2048_S256 (.inl rfl) rfl (ix1 p)).trans ?_
  refine Finset.sum_congr rfl fun k _ => congrArg v (funext fun a => Fin.ext ?_)
  match a with
  | ⟨0, _⟩ => rfl
  | ⟨1, _⟩ => rfl

/-- The tile's six row sums: accumulator `k`'s addend at row `p`. -/
def tileSum (k : Fin 6) (x0 : Vec Ideal S256x2048 .f32) (x1 x2 : Vec Ideal S256x1 .f32) (p : Fin 256) : EReal :=
  ∑ q : Fin 2048, elt k (x1 (ix2 p (0 : Fin 1))) (x0 (ix2 p q)) (x2 (ix2 p (0 : Fin 1)))

end Cert.KernelIdeal.TileValue

end
-- ==== Proof.TileUpdate.lean ====
/-
  What one grid point does to the six accumulators, and what the last point of a row tile's run makes of them.

  `upd k acc x a b` is accumulator `k` after a point whose tile holds `x`, `a`, `b`, from contents `acc`: at row `p` it is
  `acc` there plus the tile's row sum of quantity `k` (`upd_apply`).  `epiA` and `epiB` are the two stores of the last
  column tile's epilogue over the six accumulators and the rows' `mean` and `var` entries: each accumulator scaled by the
  word 2^-14, then `grad` (`epiA_apply`, `epiB_apply`).  The terms are the kernel's own payloads, generic in the float
  family; the readings are at the extended reals.
-/
import proofs.«129264_j5420248727614_1_alg».proof.Proof.TileValue

noncomputable section

namespace Cert.KernelIdeal.TileValue

open Idealize.ShloMosaic Idealize.ShloMosaic.ValueIdx Idealize.ShloMosaic.ValueLayout
open Cert.KernelIdeal Cert.KernelIdeal.Gen Cert.RowMoments

section
variable {F : FTy → Type} [FloatOps F]

/-- Accumulator `k` after a point, from its contents before and the point's tile. -/
def upd : Fin 6 → Vec F S256x1 .f32 → Vec F S256x2048 .f32 → Vec F S256x1 .f32 → Vec F S256x1 .f32 → Vec F S256x1 .f32
  | 0 => fun acc x0 x1 x2 => k0_pay18 x0 x1 x2 acc
  | 1 => fun acc x0 x1 x2 => k0_pay20 (k0_pay19 x0 x1 x2 acc)
  | 2 => fun acc x0 x1 x2 => k0_pay21 (k0_pay16 x0 x1 x2) acc
  | 3 => fun acc x0 x1 x2 => k0_pay22 (k0_pay15 x0 x1 x2) acc
  | 4 => fun acc x0 x1 x2 => k0_pay23 (k0_pay15 x0 x1 x2) (k0_pay17 x0 x1 x2) acc
  | 5 => fun acc x0 x1 x2 => k0_pay24 (k0_pay15 x0 x1 x2) (k0_pay16 x0 x1 x2) acc

/-- The zero block a run's first point stores into every accumulator before it adds. -/
def zeroAcc : Vec F S256x1 .f32 := broadcast S256x1 (Scalar.ofBits .f32 0x00000000#32)

/-- The epilogue's first store: the gradient in `a`, from accumulators 0, 1, 3, 4. -/
def epiA (s0 s1 s3 s4 mu vr : Vec F S256x1 .f32) : Vec F S256x1 .f32 :=
  k0_pay1 (k0_pay8 s0 s1 s3 s4 mu vr) (Scalar.ofBits .f32 0x40000000#32)

/-- The epilogue's second store: the gradient in `b`, from accumulators 0, 2, 3, 5. -/
def epiB (s0 s2 s3 s5 mu vr : Vec F S256x1 .f32) : Vec F S256x1 .f32 :=
  k0_pay2 (k0_pay4 s2) (k0_pay5 s0 mu) (k0_pay6 s0 s3 vr) (k0_pay7 s0 s2 s5)

end

/-- The word 2^-14 the epilogue scales each accumulator by. -/
abbrev invCols : EReal := Ideal.ofBits .f32 0x38800000#32

theorem upd_apply (k : Fin 6) (acc : Vec Ideal S256x1 .f32) (x0 : Vec Ideal S256x2048 .f32) (x1 x2 : Vec Ideal S256x1 .f32)
    (p : Fin 256) (u : Fin 1) :
    upd (F := Ideal) k acc x0 x1 x2 (ix2 p u) = acc (ix2 p u) + tileSum k x0 x1 x2 p := by
  fin_cases k
  · show k0_pay18 (F := Ideal) x0 x1 x2 acc (ix2 p u) = _
    unfold k0_pay18
    simp only [shapeCast_self]
    show acc (ix2 p u) + shapeCast S256x1 (multiReduction .add [1] S256 (k0_pay15 (F := Ideal) x0 x1 x2) 0x00000000#32
      reduces_S256x2048_S256 (.inl rfl) rfl) shapeCasts_S256_S256x1 (ix2 p u) = _
    rw [laneSum_apply]
    exact congrArg _ (Finset.sum_congr rfl fun q _ => logistic_apply x0 x1 x2 p q)
  · show k0_pay20 (F := Ideal) (k0_pay19 (F := Ideal) x0 x1 x2 acc) (ix2 p u) = _
    unfold k0_pay20 k0_pay19
    simp only [shapeCast_self]
    show acc (ix2 p u) + shapeCast S256x1 (multiReduction .add [1] S256 (k0_pay17 (F := Ideal) x0 x1 x2) 0x00000000#32
      reduces_S256x2048_S256 (.inl rfl) rfl) shapeCasts_S256_S256x1 (ix2 p u) = _
    rw [laneSum_apply]
    exact congrArg _ (Finset.sum_congr rfl fun q _ => xderiv_apply x0 x1 x2 p q)
  · show k0_pay21 (F := Ideal) (k0_pay16 (F := Ideal) x0 x1 x2) acc (ix2 p u) = _
    unfold k0_pay21
    simp only [shapeCast_self]
    show acc (ix2 p u) + shapeCast S256x1 (multiReduction .add [1] S256 (k0_pay16 (F := Ideal) x0 x1 x2) 0x00000000#32
      reduces_S256x2048_S256 (.inl rfl) rfl) shapeCasts_S256_S256x1 (ix2 p u) = _
    rw [laneSum_apply]
    exact congrArg _ (Finset.sum_congr rfl fun q _ => deriv_apply x0 x1 x2 p q)
  · show k0_pay22 (F := Ideal) (k0_pay15 (F := Ideal) x0 x1 x2) acc (ix2 p u) = _
    unfold k0_pay22
    simp only [shapeCast_self]
    show acc (ix2 p u) + shapeCast S256x1 (multiReduction .add [1] S256
      (mulf (k0_pay15 (F := Ideal) x0 x1 x2) (k0_pay15 (F := Ideal) x0 x1 x2)) 0x00000000#32
      reduces_S256x2048_S256 (.inl rfl) rfl) shapeCasts_S256_S256x1 (ix2 p u) = _
    rw [laneSum_apply]
    refine congrArg _ (Finset.sum_congr rfl fun q _ => ?_)
    show k0_pay15 (F := Ideal) x0 x1 x2 (ix2 p q) * k0_pay15 (F := Ideal) x0 x1 x2 (ix2 p q) = _
    rw [logistic_apply]; rfl
  · show k0_pay23 (F := Ideal) (k0_pay15 (F := Ideal) x0 x1 x2) (k0_pay17 (F := Ideal) x0 x1 x2) acc (ix2 p u) = _
    unfold k0_pay23
    simp only [shapeCast_self]
    show acc (ix2 p u) + shapeCast S256x1 (multiReduction .add [1] S256
      (mulf (k0_pay15 (F := Ideal) x0 x1 x2) (k0_pay17 (F := Ideal) x0 x1 x2)) 0x00000000#32
      reduces_S256x2048_S256 (.inl rfl) rfl) shapeCasts_S256_S256x1 (ix2 p u) = _
    rw [laneSum_apply]
    refine congrArg _ (Finset.sum_congr rfl fun q _ => ?_)
    show k0_pay15 (F := Ideal) x0 x1 x2 (ix2 p q) * k0_pay17 (F := Ideal) x0 x1 x2 (ix2 p q) = _
    rw [logistic_apply, xderiv_apply]; rfl
  · show k0_pay24 (F := Ideal) (k0_pay15 (F := Ideal) x0 x1 x2) (k0_pay16 (F := Ideal) x0 x1 x2) acc (ix2 p u) = _
    unfold k0_pay24
    simp only [shapeCast_self]
    show acc (ix2 p u) + shapeCast S256x1 (multiReduction .add [1] S256
      (mulf (k0_pay15 (F := Ideal) x0 x1 x2) (k0_pay16 (F := Ideal) x0 x1 x2)) 0x00000000#32
      reduces_S256x2048_S256 (.inl rfl) rfl) shapeCasts_S256_S256x1 (ix2 p u) = _
    rw [laneSum_apply]
    refine congrArg _ (Finset.sum_congr rfl fun q _ => ?_)
    show k0_pay15 (F := Ideal) x0 x1 x2 (ix2 p q) * k0_pay16 (F := Ideal) x0 x1 x2 (ix2 p q) = _
    rw [logistic_apply, deriv_apply]; rfl

theorem zeroAcc_apply (i : S256x1.Idx) : zeroAcc (F := Ideal) i = zer := rfl

theorem epiA_apply (s0 s1 s3 s4 mu vr : Vec Ideal S256x1 .f32) (i : S256x1.Idx) :
    epiA (F := Ideal) s0 s1 s3 s4 mu vr i
      = grad (s0 i * invCols) (s1 i * invCols) (s3 i * invCols) (s4 i * invCols) (mu i) (vr i) := rfl

theorem epiB_apply (s0 s2 s3 s5 mu vr : Vec Ideal S256x1 .f32) (i : S256x1.Idx) :
    epiB (F := Ideal) s0 s2 s3 s5 mu vr i
      = grad (s0 i * invCols) (s2 i * invCols) (s3 i * invCols) (s5 i * invCols) (mu i) (vr i) := rfl

end Cert.KernelIdeal.TileValue

end
-- ==== Proof.Pieces.lean ====
/-
  What each case of the body leaves in the six accumulators and, at a run's last point, in the two result blocks.

  A point that is not a run's first adds its tile's six row sums to what the accumulators held (`upd`); a run's first
  point stores zeros first, reads them back, and adds (`upd` from `zeroAcc`); a run's last point also reads the six
  accumulators it has just updated, with the rows' `mean` and `var` entries, and stores the two epilogue values (`epiA`,
  `epiB`).  Each is the covering store's payload over the loaded blocks, read off the pieces the body's run found.
-/
import proofs.«129264_j5420248727614_1_alg».proof.Proof.KernelIdealFrameP
import proofs.«129264_j5420248727614_1_alg».proof.Proof.TileUpdate
import Idealize.ShloMosaic.Lib.Pipeline.Value
import Idealize.ShloMosaic.Lib.Tactic

noncomputable section

namespace Cert.KernelIdeal.TileValue

open Idealize.ShloMosaic Idealize.ShloMosaic.TcCoe Idealize.SL.Sem
open Cert.KernelIdeal Cert.KernelIdeal.Gen Cert.KernelIdeal.GenP

variable {F : FTy → Type} [FloatOps F]
variable (c : Dev nD) (i : grid0.Coords)
  (a2 : Memref sig .tc .vmem S256x2048 .f32) (h2 : a2.IsWhole) (a3 : Memref sig .tc .vmem S256x1 .f32) (h3 : a3.IsWhole)
  (a4 : Memref sig .tc .vmem S256x1 .f32) (h4 : a4.IsWhole) (a5 : Memref sig .tc .vmem S256x1 .f32) (h5 : a5.IsWhole)
  (a6 : Memref sig .tc .vmem S256x1 .f32) (h6 : a6.IsWhole) (a7 : Memref sig .tc .vmem S256x1 .f32) (h7 : a7.IsWhole)
  (a8 : Memref sig .tc .vmem S256x1 .f32) (h8 : a8.IsWhole) (a9 : Memref sig .tc .vmem S256x1 .f32) (h9 : a9.IsWhole)
  (a10 : Memref sig .tc .vmem S256x1 .f32) (h10 : a10.IsWhole) (a11 : Memref sig .tc .vmem S256x1 .f32) (h11 : a11.IsWhole)
  (a12 : Memref sig .tc .vmem S256x1 .f32) (h12 : a12.IsWhole) (a13 : Memref sig .tc .vmem S256x1 .f32) (h13 : a13.IsWhole)
  (a14 : Memref sig .tc .vmem S256x1 .f32) (h14 : a14.IsWhole)
  (x0 : Vec F S256x2048 .f32) (x1 x2 x3 x4 : Vec F S256x1 .f32) (xs0 xs1 xs2 xs3 xs4 xs5 : Vec F S256x1 .f32)

theorem hz : (![0, 0] : Fin 2 → Nat) = fun _ => 0 := funext fun a => by fin_cases a <;> rfl

/-- Case B, accumulator 0: what it held plus the tile's row sums. -/
theorem accB_0 (hc0 : ¬cond0_0 i) (hc1 : ¬cond0_1 i) :
    sout0_B_0 c i a2 h2 a3 h3 a4 h4 a5 h5 a6 h6 a7 h7 a8 h8 a9 h9 a10 h10 a11 h11 a12 h12 a13 h13 a14 h14 hc0 hc1 x0 x1 x2 x3 x4 xs0 xs1 xs2 xs3 xs4 xs5 = upd 0 xs0 x0 x1 x2 := by
  unfold sout0_B_0
  rw [View.read_writes_eq_canon _ _ _ (scover0_B_0 c i a2 h2 a3 h3 a4 h4 a5 h5 a6 h6 a7 h7 a8 h8 a9 h9 a10 h10 a11 h11 a12 h12 a13 h13 a14 h14 hc0 hc1 x0 x1 x2 x3 x4 xs0 xs1 xs2 xs3 xs4 xs5)]
  unfold kernelRun0_B
  dsimp only
  sl_unfold_words
  rw [View.canon_unit_zero hz]
  simp only [View.readAt_eq_ld, h2.read_unread, h3.read_unread, h4.read_unread, h5.read_unread, h6.read_unread, h9.read_unread, h10.read_unread, h11.read_unread, h12.read_unread, h13.read_unread, h14.read_unread, View.ld_unit_zero (S := S256x1) hz,
    View.ld_unit_zero (S := S256x2048) hz, View.readCov_unit_zero (S := S256x1) _ hz]
  rfl

/-- Case B, accumulator 1: what it held plus the tile's row sums. -/
theorem accB_1 (hc0 : ¬cond0_0 i) (hc1 : ¬cond0_1 i) :
    sout0_B_1 c i a2 h2 a3 h3 a4 h4 a5 h5 a6 h6 a7 h7 a8 h8 a9 h9 a10 h10 a11 h11 a12 h12 a13 h13 a14 h14 hc0 hc1 x0 x1 x2 x3 x4 xs0 xs1 xs2 xs3 xs4 xs5 = upd 1 xs1 x0 x1 x2 := by
  unfold sout0_B_1
  rw [View.read_writes_eq_canon _ _ _ (scover0_B_1 c i a2 h2 a3 h3 a4 h4 a5 h5 a6 h6 a7 h7 a8 h8 a9 h9 a10 h10 a11 h11 a12 h12 a13 h13 a14 h14 hc0 hc1 x0 x1 x2 x3 x4 xs0 xs1 xs2 xs3 xs4 xs5)]
  unfold kernelRun0_B
  dsimp only
  sl_unfold_words
  rw [View.canon_unit_zero hz]
  simp only [View.readAt_eq_ld, h2.read_unread, h3.read_unread, h4.read_unread, h5.read_unread, h6.read_unread, h9.read_unread, h10.read_unread, h11.read_unread, h12.read_unread, h13.read_unread, h14.read_unread, View.ld_unit_zero (S := S256x1) hz,
    View.ld_unit_zero (S := S256x2048) hz, View.readCov_unit_zero (S := S256x1) _ hz]
  rfl

/-- Case B, accumulator 2: what it held plus the tile's row sums. -/
theorem accB_2 (hc0 : ¬cond0_0 i) (hc1 : ¬cond0_1 i) :
    sout0_B_2 c i a2 h2 a3 h3 a4 h4 a5 h5 a6 h6 a7 h7 a8 h8 a9 h9 a10 h10 a11 h11 a12 h12 a13 h13 a14 h14 hc0 hc1 x0 x1 x2 x3 x4 xs0 xs1 xs2 xs3 xs4 xs5 = upd 2 xs2 x0 x1 x2 := by
  unfold sout0_B_2
  rw [View.read_writes_eq_canon _ _ _ (scover0_B_2 c i a2 h2 a3 h3 a4 h4 a5 h5 a6 h6 a7 h7 a8 h8 a9 h9 a10 h10 a11 h11 a12 h12 a13 h13 a14 h14 hc0 hc1 x0 x1 x2 x3 x4 xs0 xs1 xs2 xs3 xs4 xs5)]
  unfold kernelRun0_B
  dsimp only
  sl_unfold_words
  rw [View.canon_unit_zero hz]
  simp only [View.readAt_eq_ld, h2.read_unread, h3.read_unread, h4.read_unread, h5.read_unread, h6.read_unread, h9.read_unread, h10.read_unread, h11.read_unread, h12.read_unread, h13.read_unread, h14.read_unread, View.ld_unit_zero (S := S256x1) hz,
    View.ld_unit_zero (S := S256x2048) hz, View.readCov_unit_zero (S := S256x1) _ hz]
  rfl

/-- Case B, accumulator 3: what it held plus the tile's row sums. -/
theorem accB_3 (hc0 : ¬cond0_0 i) (hc1 : ¬cond0_1 i) :
    sout0_B_3 c i a2 h2 a3 h3 a4 h4 a5 h5 a6 h6 a7 h7 a8 h8 a9 h9 a10 h10 a11 h11 a12 h12 a13 h13 a14 h14 hc0 hc1 x0 x1 x2 x3 x4 xs0 xs1 xs2 xs3 xs4 xs5 = upd 3 xs3 x0 x1 x2 := by
  unfold sout0_B_3
  rw [View.read_writes_eq_canon _ _ _ (scover0_B_3 c i a2 h2 a3 h3 a4 h4 a5 h5 a6 h6 a7 h7 a8 h8 a9 h9 a10 h10 a11 h11 a12 h12 a13 h13 a14 h14 hc0 hc1 x0 x1 x2 x3 x4 xs0 xs1 xs2 xs3 xs4 xs5)]
  unfold kernelRun0_B
  dsimp only
  sl_unfold_words
  rw [View.canon_unit_zero hz]
  simp only [View.readAt_eq_ld, h2.read_unread, h3.read_unread, h4.read_unread, h5.read_unread, h6.read_unread, h9.read_unread, h10.read_unread, h11.read_unread, h12.read_unread, h13.read_unread, h14.read_unread, View.ld_unit_zero (S := S256x1) hz,
    View.ld_unit_zero (S := S256x2048) hz, View.readCov_unit_zero (S := S256x1) _ hz]
  rfl

/-- Case B, accumulator 4: what it held plus the tile's row sums. -/
theorem accB_4 (hc0 : ¬cond0_0 i) (hc1 : ¬cond0_1 i) :
    sout0_B_4 c i a2 h2 a3 h3 a4 h4 a5 h5 a6 h6 a7 h7 a8 h8 a9 h9 a10 h10 a11 h11 a12 h12 a13 h13 a14 h14 hc0 hc1 x0 x1 x2 x3 x4 xs0 xs1 xs2 xs3 xs4 xs5 = upd 4 xs4 x0 x1 x2 := by
  unfold sout0_B_4
  rw [View.read_writes_eq_canon _ _ _ (scover0_B_4 c i a2 h2 a3 h3 a4 h4 a5 h5 a6 h6 a7 h7 a8 h8 a9 h9 a10 h10 a11 h11 a12 h12 a13 h13 a14 h14 hc0 hc1 x0 x1 x2 x3 x4 xs0 xs1 xs2 xs3 xs4 xs5)]
  unfold kernelRun0_B
  dsimp only
  sl_unfold_words
  rw [View.canon_unit_zero hz]
  simp only [View.readAt_eq_ld, h2.read_unread, h3.read_unread, h4.read_unread, h5.read_unread, h6.read_unread, h9.read_unread, h10.read_unread, h11.read_unread, h12.read_unread, h13.read_unread, h14.read_unread, View.ld_unit_zero (S := S256x1) hz,
    View.ld_unit_zero (S := S256x2048) hz, View.readCov_unit_zero (S := S256x1) _ hz]
  rfl

/-- Case B, accumulator 5: what it held plus the tile's row sums. -/
theorem accB_5 (hc0 : ¬cond0_0 i) (hc1 : ¬cond0_1 i) :
    sout0_B_5 c i a2 h2 a3 h3 a4 h4 a5 h5 a6 h6 a7 h7 a8 h8 a9 h9 a10 h10 a11 h11 a12 h12 a13 h13 a14 h14 hc0 hc1 x0 x1 x2 x3 x4 xs0 xs1 xs2 xs3 xs4 xs5 = upd 5 xs5 x0 x1 x2 := by
  unfold sout0_B_5
  rw [View.read_writes_eq_canon _ _ _ (scover0_B_5 c i a2 h2 a3 h3 a4 h4 a5 h5 a6 h6 a7 h7 a8 h8 a9 h9 a10 h10 a11 h11 a12 h12 a13 h13 a14 h14 hc0 hc1 x0 x1 x2 x3 x4 xs0 xs1 xs2 xs3 xs4 xs5)]
  unfold kernelRun0_B
  dsimp only
  sl_unfold_words
  rw [View.canon_unit_zero hz]
  simp only [View.readAt_eq_ld, h2.read_unread, h3.read_unread, h4.read_unread, h5.read_unread, h6.read_unread, h9.read_unread, h10.read_unread, h11.read_unread, h12.read_unread, h13.read_unread, h14.read_unread, View.ld_unit_zero (S := S256x1) hz,
    View.ld_unit_zero (S := S256x2048) hz, View.readCov_unit_zero (S := S256x1) _ hz]
  rfl

/-- Case C, accumulator 0: what it held plus the tile's row sums. -/
theorem accC_0 (hc0 : ¬cond0_0 i) (hc1 : cond0_1 i) :
    sout0_C_0 c i a2 h2 a3 h3 a4 h4 a5 h5 a6 h6 a7 h7 a8 h8 a9 h9 a10 h10 a11 h11 a12 h12 a13 h13 a14 h14 hc0 hc1 x0 x1 x2 x3 x4 xs0 xs1 xs2 xs3 xs4 xs5 = upd 0 xs0 x0 x1 x2 := by
  unfold sout0_C_0
  rw [View.read_writes_eq_canon _ _ _ (scover0_C_0 c i a2 h2 a3 h3 a4 h4 a5 h5 a6 h6 a7 h7 a8 h8 a9 h9 a10 h10 a11 h11 a12 h12 a13 h13 a14 h14 hc0 hc1 x0 x1 x2 x3 x4 xs0 xs1 xs2 xs3 xs4 xs5)]
  unfold kernelRun0_C
  dsimp only
  sl_unfold_words
  rw [View.canon_unit_zero hz]
  simp only [View.readAt_eq_ld, h2.read_unread, h3.read_unread, h4.read_unread, h5.read_unread, h6.read_unread, h9.read_unread, h10.read_unread, h11.read_unread, h12.read_unread, h13.read_unread, h14.read_unread, View.ld_unit_zero (S := S256x1) hz,
    View.ld_unit_zero (S := S256x2048) hz, View.readCov_unit_zero (S := S256x1) _ hz]
  rfl

/-- Case C, accumulator 1: what it held plus the tile's row sums. -/
theorem accC_1 (hc0 : ¬cond0_0 i) (hc1 : cond0_1 i) :
    sout0_C_1 c i a2 h2 a3 h3 a4 h4 a5 h5 a6 h6 a7 h7 a8 h8 a9 h9 a10 h10 a11 h11 a12 h12 a13 h13 a14 h14 hc0 hc1 x0 x1 x2 x3 x4 xs0 xs1 xs2 xs3 xs4 xs5 = upd 1 xs1 x0 x1 x2 := by
  unfold sout0_C_1
  rw [View.read_writes_eq_canon _ _ _ (scover0_C_1 c i a2 h2 a3 h3 a4 h4 a5 h5 a6 h6 a7 h7 a8 h8 a9 h9 a10 h10 a11 h11 a12 h12 a13 h13 a14 h14 hc0 hc1 x0 x1 x2 x3 x4 xs0 xs1 xs2 xs3 xs4 xs5)]
  unfold kernelRun0_C
  dsimp only
  sl_unfold_words
  rw [View.canon_unit_zero hz]
  simp only [View.readAt_eq_ld, h2.read_unread, h3.read_unread, h4.read_unread, h5.read_unread, h6.read_unread, h9.read_unread, h10.read_unread, h11.read_unread, h12.read_unread, h13.read_unread, h14.read_unread, View.ld_unit_zero (S := S256x1) hz,
    View.ld_unit_zero (S := S256x2048) hz, View.readCov_unit_zero (S := S256x1) _ hz]
  rfl

/-- Case C, accumulator 2: what it held plus the tile's row sums. -/
theorem accC_2 (hc0 : ¬cond0_0 i) (hc1 : cond0_1 i) :
    sout0_C_2 c i a2 h2 a3 h3 a4 h4 a5 h5 a6 h6 a7 h7 a8 h8 a9 h9 a10 h10 a11 h11 a12 h12 a13 h13 a14 h14 hc0 hc1 x0 x1 x2 x3 x4 xs0 xs1 xs2 xs3 xs4 xs5 = upd 2 xs2 x0 x1 x2 := by
  unfold sout0_C_2
  rw [View.read_writes_eq_canon _ _ _ (scover0_C_2 c i a2 h2 a3 h3 a4 h4 a5 h5 a6 h6 a7 h7 a8 h8 a9 h9 a10 h10 a11 h11 a12 h12 a13 h13 a14 h14 hc0 hc1 x0 x1 x2 x3 x4 xs0 xs1 xs2 xs3 xs4 xs5)]
  unfold kernelRun0_C
  dsimp only
  sl_unfold_words
  rw [View.canon_unit_zero hz]
  simp only [View.readAt_eq_ld, h2.read_unread, h3.read_unread, h4.read_unread, h5.read_unread, h6.read_unread, h9.read_unread, h10.read_unread, h11.read_unread, h12.read_unread, h13.read_unread, h14.read_unread, View.ld_unit_zero (S := S256x1) hz,
    View.ld_unit_zero (S := S256x2048) hz, View.readCov_unit_zero (S := S256x1) _ hz]
  rfl

/-- Case C, accumulator 3: what it held plus the tile's row sums. -/
theorem accC_3 (hc0 : ¬cond0_0 i) (hc1 : cond0_1 i) :
    sout0_C_3 c i a2 h2 a3 h3 a4 h4 a5 h5 a6 h6 a7 h7 a8 h8 a9 h9 a10 h10 a11 h11 a12 h12 a13 h13 a14 h14 hc0 hc1 x0 x1 x2 x3 x4 xs0 xs1 xs2 xs3 xs4 xs5 = upd 3 xs3 x0 x1 x2 := by
  unfold sout0_C_3
  rw [View.read_writes_eq_canon _ _ _ (scover0_C_3 c i a2 h2 a3 h3 a4 h4 a5 h5 a6 h6 a7 h7 a8 h8 a9 h9 a10 h10 a11 h11 a12 h12 a13 h13 a14 h14 hc0 hc1 x0 x1 x2 x3 x4 xs0 xs1 xs2 xs3 xs4 xs5)]
  unfold kernelRun0_C
  dsimp only
  sl_unfold_words
  rw [View.canon_unit_zero hz]
  simp only [View.readAt_eq_ld, h2.read_unread, h3.read_unread, h4.read_unread, h5.read_unread, h6.read_unread, h9.read_unread, h10.read_unread, h11.read_unread, h12.read_unread, h13.read_unread, h14.read_unread, View.ld_unit_zero (S := S256x1) hz,
    View.ld_unit_zero (S := S256x2048) hz, View.readCov_unit_zero (S := S256x1) _ hz]
  rfl

/-- Case C, accumulator 4: what it held plus the tile's row sums. -/
theorem accC_4 (hc0 : ¬cond0_0 i) (hc1 : cond0_1 i) :
    sout0_C_4 c i a2 h2 a3 h3 a4 h4 a5 h5 a6 h6 a7 h7 a8 h8 a9 h9 a10 h10 a11 h11 a12 h12 a13 h13 a14 h14 hc0 hc1 x0 x1 x2 x3 x4 xs0 xs1 xs2 xs3 xs4 xs5 = upd 4 xs4 x0 x1 x2 := by
  unfold sout0_C_4
  rw [View.read_writes_eq_canon _ _ _ (scover0_C_4 c i a2 h2 a3 h3 a4 h4 a5 h5 a6 h6 a7 h7 a8 h8 a9 h9 a10 h10 a11 h11 a12 h12 a13 h13 a14 h14 hc0 hc1 x0 x1 x2 x3 x4 xs0 xs1 xs2 xs3 xs4 xs5)]
  unfold kernelRun0_C
  dsimp only
  sl_unfold_words
  rw [View.canon_unit_zero hz]
  simp only [View.readAt_eq_ld, h2.read_unread, h3.read_unread, h4.read_unread, h5.read_unread, h6.read_unread, h9.read_unread, h10.read_unread, h11.read_unread, h12.read_unread, h13.read_unread, h14.read_unread, View.ld_unit_zero (S := S256x1) hz,
    View.ld_unit_zero (S := S256x2048) hz, View.readCov_unit_zero (S := S256x1) _ hz]
  rfl

/-- Case C, accumulator 5: what it held plus the tile's row sums. -/
theorem accC_5 (hc0 : ¬cond0_0 i) (hc1 : cond0_1 i) :
    sout0_C_5 c i a2 h2 a3 h3 a4 h4 a5 h5 a6 h6 a7 h7 a8 h8 a9 h9 a10 h10 a11 h11 a12 h12 a13 h13 a14 h14 hc0 hc1 x0 x1 x2 x3 x4 xs0 xs1 xs2 xs3 xs4 xs5 = upd 5 xs5 x0 x1 x2 := by
  unfold sout0_C_5
  rw [View.read_writes_eq_canon _ _ _ (scover0_C_5 c i a2 h2 a3 h3 a4 h4 a5 h5 a6 h6 a7 h7 a8 h8 a9 h9 a10 h10 a11 h11 a12 h12 a13 h13 a14 h14 hc0 hc1 x0 x1 x2 x3 x4 xs0 xs1 xs2 xs3 xs4 xs5)]
  unfold kernelRun0_C
  dsimp only
  sl_unfold_words
  rw [View.canon_unit_zero hz]
  simp only [View.readAt_eq_ld, h2.read_unread, h3.read_unread, h4.read_unread, h5.read_unread, h6.read_unread, h9.read_unread, h10.read_unread, h11.read_unread, h12.read_unread, h13.read_unread, h14.read_unread, View.ld_unit_zero (S := S256x1) hz,
    View.ld_unit_zero (S := S256x2048) hz, View.readCov_unit_zero (S := S256x1) _ hz]
  rfl

/-- Case A, accumulator 0: zero, read back, plus the tile's row sums. -/
theorem accA_0 (hc0 : cond0_0 i) (hc1 : ¬cond0_1 i) :
    sout0_A_0 c i a2 h2 a3 h3 a4 h4 a5 h5 a6 h6 a7 h7 a8 h8 a9 h9 a10 h10 a11 h11 a12 h12 a13 h13 a14 h14 hc0 hc1 x0 x1 x2 x3 x4 = upd 0 zeroAcc x0 x1 x2 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 hc0 hc1 x0 x1 x2 x3 x4)]
  unfold kernelRun0_A
  dsimp only
  sl_unfold_words
  rw [View.canon_cons_unit_zero (S := S256x1) hz, View.readCov_unit_zero (S := S256x1) _ hz]
  simp only [View.readAt_eq_ld, h2.read_unread, h3.read_unread, h4.read_unread, h5.read_unread, h6.read_unread, h9.read_unread, h10.read_unread, h11.read_unread, h12.read_unread, h13.read_unread, h14.read_unread, View.ld_unit_zero (S := S256x1) hz,
    View.ld_unit_zero (S := S256x2048) hz, View.readCov_unit_zero (S := S256x1) _ hz]
  unfold upd zeroAcc k0_pay9
  simp only [shapeCast_self]

/-- Case A, accumulator 1: zero, read back, plus the tile's row sums. -/
theorem accA_1 (hc0 : cond0_0 i) (hc1 : ¬cond0_1 i) :
    sout0_A_1 c i a2 h2 a3 h3 a4 h4 a5 h5 a6 h6 a7 h7 a8 h8 a9 h9 a10 h10 a11 h11 a12 h12 a13 h13 a14 h14 hc0 hc1 x0 x1 x2 x3 x4 = upd 1 zeroAcc x0 x1 x2 := by
  unfold sout0_A_1
  rw [View.read_writes_eq_canon _ _ _ (scover0_A_1 c i a2 h2 a3 h3 a4 h4 a5 h5 a6 h6 a7 h7 a8 h8 a9 h9 a10 h10 a11 h11 a12 h12 a13 h13 a14 h14 hc0 hc1 x0 x1 x2 x3 x4)]
  unfold kernelRun0_A
  dsimp only
  sl_unfold_words
  rw [View.canon_cons_unit_zero (S := S256x1) hz, View.readCov_unit_zero (S := S256x1) _ hz]
  simp only [View.readAt_eq_ld, h2.read_unread, h3.read_unread, h4.read_unread, h5.read_unread, h6.read_unread, h9.read_unread, h10.read_unread, h11.read_unread, h12.read_unread, h13.read_unread, h14.read_unread, View.ld_unit_zero (S := S256x1) hz,
    View.ld_unit_zero (S := S256x2048) hz, View.readCov_unit_zero (S := S256x1) _ hz]
  unfold upd zeroAcc k0_pay10
  simp only [shapeCast_self]

/-- Case A, accumulator 2: zero, read back, plus the tile's row sums. -/
theorem accA_2 (hc0 : cond0_0 i) (hc1 : ¬cond0_1 i) :
    sout0_A_2 c i a2 h2 a3 h3 a4 h4 a5 h5 a6 h6 a7 h7 a8 h8 a9 h9 a10 h10 a11 h11 a12 h12 a13 h13 a14 h14 hc0 hc1 x0 x1 x2 x3 x4 = upd 2 zeroAcc x0 x1 x2 := by
  unfold sout0_A_2
  rw [View.read_writes_eq_canon _ _ _ (scover0_A_2 c i a2 h2 a3 h3 a4 h4 a5 h5 a6 h6 a7 h7 a8 h8 a9 h9 a10 h10 a11 h11 a12 h12 a13 h13 a14 h14 hc0 hc1 x0 x1 x2 x3 x4)]
  unfold kernelRun0_A
  dsimp only
  sl_unfold_words
  rw [View.canon_cons_unit_zero (S := S256x1) hz, View.readCov_unit_zero (S := S256x1) _ hz]
  simp only [View.readAt_eq_ld, h2.read_unread, h3.read_unread, h4.read_unread, h5.read_unread, h6.read_unread, h9.read_unread, h10.read_unread, h11.read_unread, h12.read_unread, h13.read_unread, h14.read_unread, View.ld_unit_zero (S := S256x1) hz,
    View.ld_unit_zero (S := S256x2048) hz, View.readCov_unit_zero (S := S256x1) _ hz]
  unfold upd zeroAcc k0_pay11
  simp only [shapeCast_self]

/-- Case A, accumulator 3: zero, read back, plus the tile's row sums. -/
theorem accA_3 (hc0 : cond0_0 i) (hc1 : ¬cond0_1 i) :
    sout0_A_3 c i a2 h2 a3 h3 a4 h4 a5 h5 a6 h6 a7 h7 a8 h8 a9 h9 a10 h10 a11 h11 a12 h12 a13 h13 a14 h14 hc0 hc1 x0 x1 x2 x3 x4 = upd 3 zeroAcc x0 x1 x2 := by
  unfold sout0_A_3
  rw [View.read_writes_eq_canon _ _ _ (scover0_A_3 c i a2 h2 a3 h3 a4 h4 a5 h5 a6 h6 a7 h7 a8 h8 a9 h9 a10 h10 a11 h11 a12 h12 a13 h13 a14 h14 hc0 hc1 x0 x1 x2 x3 x4)]
  unfold kernelRun0_A
  dsimp only
  sl_unfold_words
  rw [View.canon_cons_unit_zero (S := S256x1) hz, View.readCov_unit_zero (S := S256x1) _ hz]
  simp only [View.readAt_eq_ld, h2.read_unread, h3.read_unread, h4.read_unread, h5.read_unread, h6.read_unread, h9.read_unread, h10.read_unread, h11.read_unread, h12.read_unread, h13.read_unread, h14.read_unread, View.ld_unit_zero (S := S256x1) hz,
    View.ld_unit_zero (S := S256x2048) hz, View.readCov_unit_zero (S := S256x1) _ hz]
  unfold upd zeroAcc k0_pay12
  simp only [shapeCast_self]

/-- Case A, accumulator 4: zero, read back, plus the tile's row sums. -/
theorem accA_4 (hc0 : cond0_0 i) (hc1 : ¬cond0_1 i) :
    sout0_A_4 c i a2 h2 a3 h3 a4 h4 a5 h5 a6 h6 a7 h7 a8 h8 a9 h9 a10 h10 a11 h11 a12 h12 a13 h13 a14 h14 hc0 hc1 x0 x1 x2 x3 x4 = upd 4 zeroAcc x0 x1 x2 := by
  unfold sout0_A_4
  rw [View.read_writes_eq_canon _ _ _ (scover0_A_4 c i a2 h2 a3 h3 a4 h4 a5 h5 a6 h6 a7 h7 a8 h8 a9 h9 a10 h10 a11 h11 a12 h12 a13 h13 a14 h14 hc0 hc1 x0 x1 x2 x3 x4)]
  unfold kernelRun0_A
  dsimp only
  sl_unfold_words
  rw [View.canon_cons_unit_zero (S := S256x1) hz, View.readCov_unit_zero (S := S256x1) _ hz]
  simp only [View.readAt_eq_ld, h2.read_unread, h3.read_unread, h4.read_unread, h5.read_unread, h6.read_unread, h9.read_unread, h10.read_unread, h11.read_unread, h12.read_unread, h13.read_unread, h14.read_unread, View.ld_unit_zero (S := S256x1) hz,
    View.ld_unit_zero (S := S256x2048) hz, View.readCov_unit_zero (S := S256x1) _ hz]
  unfold upd zeroAcc k0_pay13
  simp only [shapeCast_self]

/-- Case A, accumulator 5: zero, read back, plus the tile's row sums. -/
theorem accA_5 (hc0 : cond0_0 i) (hc1 : ¬cond0_1 i) :
    sout0_A_5 c i a2 h2 a3 h3 a4 h4 a5 h5 a6 h6 a7 h7 a8 h8 a9 h9 a10 h10 a11 h11 a12 h12 a13 h13 a14 h14 hc0 hc1 x0 x1 x2 x3 x4 = upd 5 zeroAcc x0 x1 x2 := by
  unfold sout0_A_5
  rw [View.read_writes_eq_canon _ _ _ (scover0_A_5 c i a2 h2 a3 h3 a4 h4 a5 h5 a6 h6 a7 h7 a8 h8 a9 h9 a10 h10 a11 h11 a12 h12 a13 h13 a14 h14 hc0 hc1 x0 x1 x2 x3 x4)]
  unfold kernelRun0_A
  dsimp only
  sl_unfold_words
  rw [View.canon_cons_unit_zero (S := S256x1) hz, View.readCov_unit_zero (S := S256x1) _ hz]
  simp only [View.readAt_eq_ld, h2.read_unread, h3.read_unread, h4.read_unread, h5.read_unread, h6.read_unread, h9.read_unread, h10.read_unread, h11.read_unread, h12.read_unread, h13.read_unread, h14.read_unread, View.ld_unit_zero (S := S256x1) hz,
    View.ld_unit_zero (S := S256x2048) hz, View.readCov_unit_zero (S := S256x1) _ hz]
  unfold upd zeroAcc k0_pay14
  simp only [shapeCast_self]

/-- Case C, first result block: the epilogue over the accumulators just updated. -/
theorem outC_5 (hc0 : ¬cond0_0 i) (hc1 : cond0_1 i) :
    out0_C_5 c i a2 h2 a3 h3 a4 h4 a5 h5 a6 h6 a7 h7 a8 h8 a9 h9 a10 h10 a11 h11 a12 h12 a13 h13 a14 h14 hc0 hc1 x0 x1 x2 x3 x4 xs0 xs1 xs2 xs3 xs4 xs5
      = epiA (upd 0 xs0 x0 x1 x2) (upd 1 xs1 x0 x1 x2) (upd 3 xs3 x0 x1 x2) (upd 4 xs4 x0 x1 x2) x3 x4 := by
  unfold out0_C_5
  rw [View.read_writes_eq_canon _ _ _ (cover0_C_5 c i a2 h2 a3 h3 a4 h4 a5 h5 a6 h6 a7 h7 a8 h8 a9 h9 a10 h10 a11 h11 a12 h12 a13 h13 a14 h14 hc0 hc1 x0 x1 x2 x3 x4 xs0 xs1 xs2 xs3 xs4 xs5)]
  unfold kernelRun0_C
  dsimp only
  sl_unfold_words
  rw [View.canon_unit_zero hz]
  simp only [View.readAt_eq_ld, h2.read_unread, h3.read_unread, h4.read_unread, h5.read_unread, h6.read_unread, h9.read_unread, h10.read_unread, h11.read_unread, h12.read_unread, h13.read_unread, h14.read_unread, View.ld_unit_zero (S := S256x1) hz,
    View.ld_unit_zero (S := S256x2048) hz, View.readCov_unit_zero (S := S256x1) _ hz]
  rfl

/-- Case C, second result block. -/
theorem outC_6 (hc0 : ¬cond0_0 i) (hc1 : cond0_1 i) :
    out0_C_6 c i a2 h2 a3 h3 a4 h4 a5 h5 a6 h6 a7 h7 a8 h8 a9 h9 a10 h10 a11 h11 a12 h12 a13 h13 a14 h14 hc0 hc1 x0 x1 x2 x3 x4 xs0 xs1 xs2 xs3 xs4 xs5
      = epiB (upd 0 xs0 x0 x1 x2) (upd 2 xs2 x0 x1 x2) (upd 3 xs3 x0 x1 x2) (upd 5 xs5 x0 x1 x2) x3 x4 := by
  unfold out0_C_6
  rw [View.read_writes_eq_canon _ _ _ (cover0_C_6 c i a2 h2 a3 h3 a4 h4 a5 h5 a6 h6 a7 h7 a8 h8 a9 h9 a10 h10 a11 h11 a12 h12 a13 h13 a14 h14 hc0 hc1 x0 x1 x2 x3 x4 xs0 xs1 xs2 xs3 xs4 xs5)]
  unfold kernelRun0_C
  dsimp only
  sl_unfold_words
  rw [View.canon_unit_zero hz]
  simp only [View.readAt_eq_ld, h2.read_unread, h3.read_unread, h4.read_unread, h5.read_unread, h6.read_unread, h9.read_unread, h10.read_unread, h11.read_unread, h12.read_unread, h13.read_unread, h14.read_unread, View.ld_unit_zero (S := S256x1) hz,
    View.ld_unit_zero (S := S256x2048) hz, View.readCov_unit_zero (S := S256x1) _ hz]
  rfl

end Cert.KernelIdeal.TileValue

end
-- ==== Proof.Accumulate.lean ====
/-
  The six accumulators after any grid point, and the two result blocks at a run's last point.

  Point `n` adds to accumulator `k`, at row `p` of the tile, the tile's row sum of quantity `k` (`addend`).  The run of
  points 8 q, ..., 8 q + 7 walks row tile `q` through its eight column tiles; after point `t` the accumulator holds the
  zero word plus the addends of the run's points up to `t` (the fold of the per-point step, unrolled), and at the run's last
  point the body stores the epilogue of the six accumulators it has just updated.
-/
import proofs.«129264_j5420248727614_1_alg».proof.Proof.KernelIdealValueP
import proofs.«129264_j5420248727614_1_alg».proof.Proof.Pieces

noncomputable section

namespace Cert.KernelIdeal.TileValue

open Idealize.ShloMosaic Idealize.ShloMosaic.TcCoe Idealize.ShloMosaic.ValueIdx Idealize.SL.Sem
open Cert.KernelIdeal Cert.KernelIdeal.Gen Cert.KernelIdeal.GenP Cert.KernelIdeal.ValueP Cert.RowMoments

variable (m : (ℓ : Loc nD τ sig) → Buf (Elt Ideal) ℓ)

/-- What point `n` adds to accumulator `k` at an index of the accumulator (nothing past the grid). -/
def addend (c : Dev nD) (k : Fin 6) (n : ℕ) (i : S256x1.Idx) : EReal :=
  if h : n < cfg0.N then
    tileSum k (iblk m c 0 ⟨n, h⟩ : Vec Ideal S256x2048 .f32) (iblk m c 1 ⟨n, h⟩ : Vec Ideal S256x1 .f32)
      (iblk m c 2 ⟨n, h⟩ : Vec Ideal S256x1 .f32) (i 0)
  else 0

theorem addend_eq (c : Dev nD) (k : Fin 6) (n : ℕ) (h : n < cfg0.N) (p : Fin 256) (u : Fin 1) :
    addend m c k n (ix2 p u) = tileSum k (iblk m c 0 ⟨n, h⟩ : Vec Ideal S256x2048 .f32)
      (iblk m c 1 ⟨n, h⟩ : Vec Ideal S256x1 .f32) (iblk m c 2 ⟨n, h⟩ : Vec Ideal S256x1 .f32) p := by
  unfold addend
  rw [dif_pos h]

/-- Accumulator 0: a run's first point leaves the zero word plus its addend; -/
theorem reset0 (c : Dev nD) (n : ℕ) (h : n < cfg0.N) (hn : n % 8 = 0) (junk : Vec Ideal S256x1 .f32) (i : S256x1.Idx) :
    scAt0_0 m c n h junk i = zer + addend m c 0 n i := by
  obtain ⟨p, u, rfl⟩ : ∃ (p : Fin 256) (u : Fin 1), i = ix2 p u := ⟨i 0, i 1, eq_ix2 i⟩
  have h7 : ¬n % 8 = 7 := by omega
  unfold scAt0_0
  rw [dif_pos hn, dif_neg h7, accA_0, addend_eq m c 0 n h]
  exact upd_apply 0 zeroAcc _ _ _ p u

/-- every later point of the run adds its addend to what the point before left. -/
theorem step0 (c : Dev nD) (n : ℕ) (h : n < cfg0.N) (hn : ¬n % 8 = 0) (acc : Vec Ideal S256x1 .f32) (i : S256x1.Idx) :
    scAt0_0 m c n h acc i = acc i + addend m c 0 n i := by
  obtain ⟨p, u, rfl⟩ : ∃ (p : Fin 256) (u : Fin 1), i = ix2 p u := ⟨i 0, i 1, eq_ix2 i⟩
  unfold scAt0_0
  rw [dif_neg hn, addend_eq m c 0 n h]
  by_cases h7 : n % 8 = 7
  · rw [dif_pos h7, accC_0]
    exact upd_apply 0 acc _ _ _ p u
  · rw [dif_neg h7, accB_0]
    exact upd_apply 0 acc _ _ _ p u

/-- So after point `t` accumulator 0 holds the zero word plus the addends of its run's points up to `t`. -/
theorem acc0_at (c : Dev nD) (t : Fin cfg0.N) (i : S256x1.Idx) :
    (outsAt0 m c t.val t.isLt).2.2.1 i
      = zer + ∑ s ∈ Finset.range (t.val % 8 + 1), addend m c 0 (8 * (t.val / 8) + s) i := by
  rw [soutsAt0_0_eq]
  exact Pipeline.accAt_add_apply _ _ (fun _ => zer) (addend m c 0) (8 * (t.val / 8)) 7
    (fun h i => reset0 m c _ h (Nat.mul_mod_right 8 _) _ i)
    (fun n h acc i hb he => step0 m c n h (by omega) acc i)
    (t.val % 8) (by omega) _ i

/-- Accumulator 1: a run's first point leaves the zero word plus its addend; -/
theorem reset1 (c : Dev nD) (n : ℕ) (h : n < cfg0.N) (hn : n % 8 = 0) (junk : Vec Ideal S256x1 .f32) (i : S256x1.Idx) :
    scAt0_1 m c n h junk i = zer + addend m c 1 n i := by
  obtain ⟨p, u, rfl⟩ : ∃ (p : Fin 256) (u : Fin 1), i = ix2 p u := ⟨i 0, i 1, eq_ix2 i⟩
  have h7 : ¬n % 8 = 7 := by omega
  unfold scAt0_1
  rw [dif_pos hn, dif_neg h7, accA_1, addend_eq m c 1 n h]
  exact upd_apply 1 zeroAcc _ _ _ p u

/-- every later point of the run adds its addend to what the point before left. -/
theorem step1 (c : Dev nD) (n : ℕ) (h : n < cfg0.N) (hn : ¬n % 8 = 0) (acc : Vec Ideal S256x1 .f32) (i : S256x1.Idx) :
    scAt0_1 m c n h acc i = acc i + addend m c 1 n i := by
  obtain ⟨p, u, rfl⟩ : ∃ (p : Fin 256) (u : Fin 1), i = ix2 p u := ⟨i 0, i 1, eq_ix2 i⟩
  unfold scAt0_1
  rw [dif_neg hn, addend_eq m c 1 n h]
  by_cases h7 : n % 8 = 7
  · rw [dif_pos h7, accC_1]
    exact upd_apply 1 acc _ _ _ p u
  · rw [dif_neg h7, accB_1]
    exact upd_apply 1 acc _ _ _ p u

/-- So after point `t` accumulator 1 holds the zero word plus the addends of its run's points up to `t`. -/
theorem acc1_at (c : Dev nD) (t : Fin cfg0.N) (i : S256x1.Idx) :
    (outsAt0 m c t.val t.isLt).2.2.2.1 i
      = zer + ∑ s ∈ Finset.range (t.val % 8 + 1), addend m c 1 (8 * (t.val / 8) + s) i := by
  rw [soutsAt0_1_eq]
  exact Pipeline.accAt_add_apply _ _ (fun _ => zer) (addend m c 1) (8 * (t.val / 8)) 7
    (fun h i => reset1 m c _ h (Nat.mul_mod_right 8 _) _ i)
    (fun n h acc i hb he => step1 m c n h (by omega) acc i)
    (t.val % 8) (by omega) _ i

/-- Accumulator 2: a run's first point leaves the zero word plus its addend; -/
theorem reset2 (c : Dev nD) (n : ℕ) (h : n < cfg0.N) (hn : n % 8 = 0) (junk : Vec Ideal S256x1 .f32) (i : S256x1.Idx) :
    scAt0_2 m c n h junk i = zer + addend m c 2 n i := by
  obtain ⟨p, u, rfl⟩ : ∃ (p : Fin 256) (u : Fin 1), i = ix2 p u := ⟨i 0, i 1, eq_ix2 i⟩
  have h7 : ¬n % 8 = 7 := by omega
  unfold scAt0_2
  rw [dif_pos hn, dif_neg h7, accA_2, addend_eq m c 2 n h]
  exact upd_apply 2 zeroAcc _ _ _ p u

/-- every later point of the run adds its addend to what the point before left. -/
theorem step2 (c : Dev nD) (n : ℕ) (h : n < cfg0.N) (hn : ¬n % 8 = 0) (acc : Vec Ideal S256x1 .f32) (i : S256x1.Idx) :
    scAt0_2 m c n h acc i = acc i + addend m c 2 n i := by
  obtain ⟨p, u, rfl⟩ : ∃ (p : Fin 256) (u : Fin 1), i = ix2 p u := ⟨i 0, i 1, eq_ix2 i⟩
  unfold scAt0_2
  rw [dif_neg hn, addend_eq m c 2 n h]
  by_cases h7 : n % 8 = 7
  · rw [dif_pos h7, accC_2]
    exact upd_apply 2 acc _ _ _ p u
  · rw [dif_neg h7, accB_2]
    exact upd_apply 2 acc _ _ _ p u

/-- So after point `t` accumulator 2 holds the zero word plus the addends of its run's points up to `t`. -/
theorem acc2_at (c : Dev nD) (t : Fin cfg0.N) (i : S256x1.Idx) :
    (outsAt0 m c t.val t.isLt).2.2.2.2.1 i
      = zer + ∑ s ∈ Finset.range (t.val % 8 + 1), addend m c 2 (8 * (t.val / 8) + s) i := by
  rw [soutsAt0_2_eq]
  exact Pipeline.accAt_add_apply _ _ (fun _ => zer) (addend m c 2) (8 * (t.val / 8)) 7
    (fun h i => reset2 m c _ h (Nat.mul_mod_right 8 _) _ i)
    (fun n h acc i hb he => step2 m c n h (by omega) acc i)
    (t.val % 8) (by omega) _ i

/-- Accumulator 3: a run's first point leaves the zero word plus its addend; -/
theorem reset3 (c : Dev nD) (n : ℕ) (h : n < cfg0.N) (hn : n % 8 = 0) (junk : Vec Ideal S256x1 .f32) (i : S256x1.Idx) :
    scAt0_3 m c n h junk i = zer + addend m c 3 n i := by
  obtain ⟨p, u, rfl⟩ : ∃ (p : Fin 256) (u : Fin 1), i = ix2 p u := ⟨i 0, i 1, eq_ix2 i⟩
  have h7 : ¬n % 8 = 7 := by omega
  unfold scAt0_3
  rw [dif_pos hn, dif_neg h7, accA_3, addend_eq m c 3 n h]
  exact upd_apply 3 zeroAcc _ _ _ p u

/-- every later point of the run adds its addend to what the point before left. -/
theorem step3 (c : Dev nD) (n : ℕ) (h : n < cfg0.N) (hn : ¬n % 8 = 0) (acc : Vec Ideal S256x1 .f32) (i : S256x1.Idx) :
    scAt0_3 m c n h acc i = acc i + addend m c 3 n i := by
  obtain ⟨p, u, rfl⟩ : ∃ (p : Fin 256) (u : Fin 1), i = ix2 p u := ⟨i 0, i 1, eq_ix2 i⟩
  unfold scAt0_3
  rw [dif_neg hn, addend_eq m c 3 n h]
  by_cases h7 : n % 8 = 7
  · rw [dif_pos h7, accC_3]
    exact upd_apply 3 acc _ _ _ p u
  · rw [dif_neg h7, accB_3]
    exact upd_apply 3 acc _ _ _ p u

/-- So after point `t` accumulator 3 holds the zero word plus the addends of its run's points up to `t`. -/
theorem acc3_at (c : Dev nD) (t : Fin cfg0.N) (i : S256x1.Idx) :
    (outsAt0 m c t.val t.isLt).2.2.2.2.2.1 i
      = zer + ∑ s ∈ Finset.range (t.val % 8 + 1), addend m c 3 (8 * (t.val / 8) + s) i := by
  rw [soutsAt0_3_eq]
  exact Pipeline.accAt_add_apply _ _ (fun _ => zer) (addend m c 3) (8 * (t.val / 8)) 7
    (fun h i => reset3 m c _ h (Nat.mul_mod_right 8 _) _ i)
    (fun n h acc i hb he => step3 m c n h (by omega) acc i)
    (t.val % 8) (by omega) _ i

/-- Accumulator 4: a run's first point leaves the zero word plus its addend; -/
theorem reset4 (c : Dev nD) (n : ℕ) (h : n < cfg0.N) (hn : n % 8 = 0) (junk : Vec Ideal S256x1 .f32) (i : S256x1.Idx) :
    scAt0_4 m c n h junk i = zer + addend m c 4 n i := by
  obtain ⟨p, u, rfl⟩ : ∃ (p : Fin 256) (u : Fin 1), i = ix2 p u := ⟨i 0, i 1, eq_ix2 i⟩
  have h7 : ¬n % 8 = 7 := by omega
  unfold scAt0_4
  rw [dif_pos hn, dif_neg h7, accA_4, addend_eq m c 4 n h]
  exact upd_apply 4 zeroAcc _ _ _ p u

/-- every later point of the run adds its addend to what the point before left. -/
theorem step4 (c : Dev nD) (n : ℕ) (h : n < cfg0.N) (hn : ¬n % 8 = 0) (acc : Vec Ideal S256x1 .f32) (i : S256x1.Idx) :
    scAt0_4 m c n h acc i = acc i + addend m c 4 n i := by
  obtain ⟨p, u, rfl⟩ : ∃ (p : Fin 256) (u : Fin 1), i = ix2 p u := ⟨i 0, i 1, eq_ix2 i⟩
  unfold scAt0_4
  rw [dif_neg hn, addend_eq m c 4 n h]
  by_cases h7 : n % 8 = 7
  · rw [dif_pos h7, accC_4]
    exact upd_apply 4 acc _ _ _ p u
  · rw [dif_neg h7, accB_4]
    exact upd_apply 4 acc _ _ _ p u

/-- So after point `t` accumulator 4 holds the zero word plus the addends of its run's points up to `t`. -/
theorem acc4_at (c : Dev nD) (t : Fin cfg0.N) (i : S256x1.Idx) :
    (outsAt0 m c t.val t.isLt).2.2.2.2.2.2.1 i
      = zer + ∑ s ∈ Finset.range (t.val % 8 + 1), addend m c 4 (8 * (t.val / 8) + s) i := by
  rw [soutsAt0_4_eq]
  exact Pipeline.accAt_add_apply _ _ (fun _ => zer) (addend m c 4) (8 * (t.val / 8)) 7
    (fun h i => reset4 m c _ h (Nat.mul_mod_right 8 _) _ i)
    (fun n h acc i hb he => step4 m c n h (by omega) acc i)
    (t.val % 8) (by omega) _ i

/-- Accumulator 5: a run's first point leaves the zero word plus its addend; -/
theorem reset5 (c : Dev nD) (n : ℕ) (h : n < cfg0.N) (hn : n % 8 = 0) (junk : Vec Ideal S256x1 .f32) (i : S256x1.Idx) :
    scAt0_5 m c n h junk i = zer + addend m c 5 n i := by
  obtain ⟨p, u, rfl⟩ : ∃ (p : Fin 256) (u : Fin 1), i = ix2 p u := ⟨i 0, i 1, eq_ix2 i⟩
  have h7 : ¬n % 8 = 7 := by omega
  unfold scAt0_5
  rw [dif_pos hn, dif_neg h7, accA_5, addend_eq m c 5 n h]
  exact upd_apply 5 zeroAcc _ _ _ p u

/-- every later point of the run adds its addend to what the point before left. -/
theorem step5 (c : Dev nD) (n : ℕ) (h : n < cfg0.N) (hn : ¬n % 8 = 0) (acc : Vec Ideal S256x1 .f32) (i : S256x1.Idx) :
    scAt0_5 m c n h acc i = acc i + addend m c 5 n i := by
  obtain ⟨p, u, rfl⟩ : ∃ (p : Fin 256) (u : Fin 1), i = ix2 p u := ⟨i 0, i 1, eq_ix2 i⟩
  unfold scAt0_5
  rw [dif_neg hn, addend_eq m c 5 n h]
  by_cases h7 : n % 8 = 7
  · rw [dif_pos h7, accC_5]
    exact upd_apply 5 acc _ _ _ p u
  · rw [dif_neg h7, accB_5]
    exact upd_apply 5 acc _ _ _ p u

/-- So after point `t` accumulator 5 holds the zero word plus the addends of its run's points up to `t`. -/
theorem acc5_at (c : Dev nD) (t : Fin cfg0.N) (i : S256x1.Idx) :
    (outsAt0 m c t.val t.isLt).2.2.2.2.2.2.2 i
      = zer + ∑ s ∈ Finset.range (t.val % 8 + 1), addend m c 5 (8 * (t.val / 8) + s) i := by
  rw [soutsAt0_5_eq]
  exact Pipeline.accAt_add_apply _ _ (fun _ => zer) (addend m c 5) (8 * (t.val / 8)) 7
    (fun h i => reset5 m c _ h (Nat.mul_mod_right 8 _) _ i)
    (fun n h acc i hb he => step5 m c n h (by omega) acc i)
    (t.val % 8) (by omega) _ i

/-- At a run's last point the first result block is the epilogue of the accumulators as that point leaves them. -/
theorem outA_block (c : Dev nD) (t : Fin cfg0.N) (h0 : ¬t.val % 8 = 0) (h7 : t.val % 8 = 7) :
    (outsAt0 m c t.val t.isLt).1
      = epiA (outsAt0 m c t.val t.isLt).2.2.1 (outsAt0 m c t.val t.isLt).2.2.2.1 (outsAt0 m c t.val t.isLt).2.2.2.2.2.1
          (outsAt0 m c t.val t.isLt).2.2.2.2.2.2.1 (iblk m c 3 t : Vec Ideal S256x1 .f32) (iblk m c 4 t : Vec Ideal S256x1 .f32) := by
  rw [outsAt0_C m c t h0 h7]
  dsimp only
  rw [outC_5, accC_0, accC_1, accC_3, accC_4]

/-- And the second. -/
theorem outB_block (c : Dev nD) (t : Fin cfg0.N) (h0 : ¬t.val % 8 = 0) (h7 : t.val % 8 = 7) :
    (outsAt0 m c t.val t.isLt).2.1
      = epiB (outsAt0 m c t.val t.isLt).2.2.1 (outsAt0 m c t.val t.isLt).2.2.2.2.1 (outsAt0 m c t.val t.isLt).2.2.2.2.2.1
          (outsAt0 m c t.val t.isLt).2.2.2.2.2.2.2 (iblk m c 3 t : Vec Ideal S256x1 .f32) (iblk m c 4 t : Vec Ideal S256x1 .f32) := by
  rw [outsAt0_C m c t h0 h7]
  dsimp only
  rw [outC_6, accC_0, accC_2, accC_3, accC_5]

end Cert.KernelIdeal.TileValue

end
-- ==== Proof.Blocks.lean ====
/-
  The windows' blocks, read at an index of the whole arrays.

  The grid has 16 row tiles by 8 column tiles, visited row tile by row tile: point `t` is row tile `t / 8`, column tile
  `t % 8`.  The block of `x` at point `t` holds rows 256 * (t / 8) + p and columns 2048 * (t % 8) + q; the blocks of the
  four column arrays (and of the two results) hold rows 256 * (t / 8) + p.
-/
import proofs.«129264_j5420248727614_1_alg».proof.Proof.Gen.KernelIdeal.Frame.Runs
import Idealize.ShloMosaic.Lib.Pipeline.Value
import Idealize.ShloMosaic.Lib.ValueIdx

noncomputable section

namespace Cert.KernelIdeal.TileValue

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The index maps in closed form, decided once over the grid's 128 points. -/
theorem index_x : ∀ t : Fin cfg0.N, win0_0.index t (0 : Fin 2) = t.val / 8 ∧ win0_0.index t (1 : Fin 2) = t.val % 8 :=
  (by decide +kernel : ∀ t : Fin grid0.N, win0_0.index t (0 : Fin 2) = t.val / 8 ∧ win0_0.index t (1 : Fin 2) = t.val % 8)
theorem index_a : ∀ t : Fin cfg0.N, win0_1.index t (0 : Fin 2) = t.val / 8 ∧ win0_1.index t (1 : Fin 2) = 0 :=
  (by decide +kernel : ∀ t : Fin grid0.N, win0_1.index t (0 : Fin 2) = t.val / 8 ∧ win0_1.index t (1 : Fin 2) = 0)
theorem index_b : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)
theorem index_mean : ∀ t : Fin cfg0.N, win0_3.index t (0 : Fin 2) = t.val / 8 ∧ win0_3.index t (1 : Fin 2) = 0 :=
  (by decide +kernel : ∀ t : Fin grid0.N, win0_3.index t (0 : Fin 2) = t.val / 8 ∧ win0_3.index t (1 : Fin 2) = 0)
theorem index_var : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)
theorem index_outA : ∀ t : Fin cfg0.N, win0_5.index t (0 : Fin 2) = t.val / 8 ∧ win0_5.index t (1 : Fin 2) = 0 :=
  (by decide +kernel : ∀ t : Fin grid0.N, win0_5.index t (0 : Fin 2) = t.val / 8 ∧ win0_5.index t (1 : Fin 2) = 0)
theorem index_outB : ∀ t : Fin cfg0.N, win0_6.index t (0 : Fin 2) = t.val / 8 ∧ win0_6.index t (1 : Fin 2) = 0 :=
  (by decide +kernel : ∀ t : Fin grid0.N, win0_6.index t (0 : Fin 2) = t.val / 8 ∧ win0_6.index t (1 : Fin 2) = 0)

/-- `x`'s block at point `t`, row `p`, column `q`, is `x` at row 256 (t / 8) + p, column 2048 (t % 8) + q. -/
theorem xblk_apply (c : Dev nD) (t : Fin cfg0.N) (p : Fin 256) (q : Fin 2048) (r : Fin 4096) (k : Fin 16384)
    (hr : r.val = 256 * (t.val / 8) + p.val) (hk : k.val = 2048 * (t.val % 8) + q.val) :
    (iblk m c 0 t : Vec F S256x2048 .f32) (ix2 p q) = m ((c : Thread nD τ).loc main_arg0) (ix2 r k) := by
  have hi := index_x t
  unfold iblk
  rw [View.read_apply]
  show V m c main_arg0 _ = m (c.tc.loc main_arg0) _
  unfold V
  congr 1
  funext a
  apply Fin.ext
  match a with
  | ⟨0, _⟩ => show win0_0.index t 0 * 256 + 1 * p.val = r.val; rw [hi.1]; omega
  | ⟨1, _⟩ => show win0_0.index t 1 * 2048 + 1 * q.val = k.val; rw [hi.2]; omega

/-- A column array's block at point `t`, row `p`, is the array at row 256 (t / 8) + p. -/
theorem ablk_apply (c : Dev nD) (t : Fin cfg0.N) (p : Fin 256) (u : Fin 1) (r : Fin 4096)
    (hr : r.val = 256 * (t.val / 8) + p.val) :
    (iblk m c 1 t : Vec F S256x1 .f32) (ix2 p u) = m ((c : Thread nD τ).loc main_arg1) (ix2 r (0 : Fin 1)) := by
  have hi := index_a t
  have hu : u.val = 0 := by omega
  unfold iblk
  rw [View.read_apply]
  show V m c main_arg1 _ = m (c.tc.loc main_arg1) _
  unfold V
  congr 1
  funext a
  apply Fin.ext
  match a with
  | ⟨0, _⟩ => show win0_1.index t 0 * 256 + 1 * p.val = r.val; rw [hi.1]; omega
  | ⟨1, _⟩ => show win0_1.index t 1 * 1 + 1 * u.val = 0; rw [hi.2]; omega

theorem bblk_apply (c : Dev nD) (t : Fin cfg0.N) (p : Fin 256) (u : Fin 1) (r : Fin 4096)
    (hr : r.val = 256 * (t.val / 8) + p.val) :
    (iblk m c 2 t : Vec F S256x1 .f32) (ix2 p u) = m ((c : Thread nD τ).loc main_arg2) (ix2 r (0 : Fin 1)) := by
  have hi := index_b t
  have hu : u.val = 0 := by omega
  unfold iblk
  rw [View.read_apply]
  show V m c main_arg2 _ = m (c.tc.loc main_arg2) _
  unfold V
  congr 1
  funext a
  apply Fin.ext
  match a with
  | ⟨0, _⟩ => show win0_2.index t 0 * 256 + 1 * p.val = r.val; rw [hi.1]; omega
  | ⟨1, _⟩ => show win0_2.index t 1 * 1 + 1 * u.val = 0; rw [hi.2]; omega

theorem meanblk_apply (c : Dev nD) (t : Fin cfg0.N) (p : Fin 256) (u : Fin 1) (r : Fin 4096)
    (hr : r.val = 256 * (t.val / 8) + p.val) :
    (iblk m c 3 t : Vec F S256x1 .f32) (ix2 p u) = m ((c : Thread nD τ).loc main_arg3) (ix2 r (0 : Fin 1)) := by
  have hi := index_mean t
  have hu : u.val = 0 := by omega
  unfold iblk
  rw [View.read_apply]
  show V m c main_arg3 _ = m (c.tc.loc main_arg3) _
  unfold V
  congr 1
  funext a
  apply Fin.ext
  match a with
  | ⟨0, _⟩ => show win0_3.index t 0 * 256 + 1 * p.val = r.val; rw [hi.1]; omega
  | ⟨1, _⟩ => show win0_3.index t 1 * 1 + 1 * u.val = 0; rw [hi.2]; omega

theorem varblk_apply (c : Dev nD) (t : Fin cfg0.N) (p : Fin 256) (u : Fin 1) (r : Fin 4096)
    (hr : r.val = 256 * (t.val / 8) + p.val) :
    (iblk m c 4 t : Vec F S256x1 .f32) (ix2 p u) = m ((c : Thread nD τ).loc main_arg4) (ix2 r (0 : Fin 1)) := by
  have hi := index_var t
  have hu : u.val = 0 := by omega
  unfold iblk
  rw [View.read_apply]
  show V m c main_arg4 _ = m (c.tc.loc main_arg4) _
  unfold V
  congr 1
  funext a
  apply Fin.ext
  match a with
  | ⟨0, _⟩ => show win0_4.index t 0 * 256 + 1 * p.val = r.val; rw [hi.1]; omega
  | ⟨1, _⟩ => show win0_4.index t 1 * 1 + 1 * u.val = 0; rw [hi.2]; omega

end Cert.KernelIdeal.TileValue

end
-- ==== Proof.RowMoments.lean ====
/-
  The arithmetic that joins the two programs, over the extended reals, with no program imported.

  Both programs compute, per row of the 4096 x 16384 input, six row MEANS (of the logistic value, of its two
  derivatives, and of three products of those) and combine them, with the row's `mean` and `var` entries, into
  two gradients. They differ in two places only.  The kernel walks a row in eight column tiles of 2048 entries,
  adding each tile's sum to an accumulator that starts at zero, and multiplies the total by the literal 2^-14; the
  reference sums the 16384 entries at once and divides by the literal 16384.  A sum over `range (J * K)` is the
  sum over the J tiles of the sums over each tile's K entries (`sum_range_tiles`: associativity and commutativity
  of + only, true at the infinities too), and dividing ANY extended real by the real 16384 is multiplying it by the
  real 1/16384 (`Ideal.div_coe`), which is what the pattern 0x38800000 denotes (`ofBits_inv_n`).  So a row's mean
  is the same extended real on both sides (`tiled_mean_eq`), with no finiteness needed.
-/
import Idealize.ShloMosaic.PureOps.Ideal
import Mathlib.Algebra.BigOperators.Intervals

noncomputable section

namespace Cert.RowMoments

open Idealize.ShloMosaic

/-- The pattern 0x46800000 (sign 0, exponent 141, mantissa 0) denotes 2^14 = 16384. -/
theorem ofBits_n : Ideal.ofBits .f32 0x46800000#32 = ((16384 : ℝ) : EReal) := by
  simp [Ideal.ofBits, Ideal.ieee, -EReal.coe_mul]; norm_num

/-- The pattern 0x38800000 (sign 0, exponent 113, mantissa 0) denotes 2^-14 = 1/16384 exactly. -/
theorem ofBits_inv_n : Ideal.ofBits .f32 0x38800000#32 = ((1 / 16384 : ℝ) : EReal) := by
  simp [Ideal.ofBits, Ideal.ieee, -EReal.coe_mul]; norm_num

/-- A sum over `J * K` consecutive naturals, tile by tile: tile `s` holds the entries `K * s + c`, `c < K`. -/
theorem sum_range_tiles {β : Type*} [AddCommMonoid β] (K : ℕ) (g : ℕ → β) :
    ∀ J : ℕ, ∑ k ∈ Finset.range (J * K), g k = ∑ s ∈ Finset.range J, ∑ c ∈ Finset.range K, g (K * s + c)
  | 0 => by simp
  | J + 1 => by
    rw [Nat.succ_mul, Finset.sum_range_add, sum_range_tiles K g J, Finset.sum_range_succ, Nat.mul_comm J K]

/-- A row's mean, the kernel's way and the reference's: the accumulator's zero plus the eight tile sums, times
    2^-14, is the host's zero plus the whole row's sum, divided by 16384. -/
theorem tiled_mean_eq (g : ℕ → EReal) :
    (Ideal.ofBits .f32 0x00000000#32 + ∑ s ∈ Finset.range 8, ∑ c ∈ Finset.range 2048, g (2048 * s + c))
        * Ideal.ofBits .f32 0x38800000#32
      = Ideal.div (Ideal.ofBits .f32 0x00000000#32 + ∑ k ∈ Finset.range 16384, g k)
          (Ideal.ofBits .f32 0x46800000#32) := by
  rw [ofBits_n, ofBits_inv_n, Ideal.div_coe (by norm_num : (16384 : ℝ) ≠ 0),
    show (16384 : ℕ) = 8 * 2048 from rfl, sum_range_tiles 2048 g 8]

end Cert.RowMoments

end
-- ==== Proof.KernelValue.lean ====
/-
  The idealized kernel's two result arrays are `resA` and `resB` of its arguments.

  Row `r = 256 q + p` of a result is written once, by the last point of row tile `q`'s run.  There each accumulator holds
  the zero word plus the eight column tiles' row sums, which is the zero word plus the row's whole sum taken tile by tile;
  scaled by the word 2^-14 that is the row's mean as the reference takes it (`tiled_mean_eq`), so the epilogue's value is
  `grad` of the reference's means.  The sixteen last points' blocks cover the 4096 rows.
-/
import proofs.«129264_j5420248727614_1_alg».proof.Proof.Accumulate
import proofs.«129264_j5420248727614_1_alg».proof.Proof.Blocks
import proofs.«129264_j5420248727614_1_alg».proof.Proof.RowMoments

noncomputable section

namespace Cert.KernelIdeal.TileValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.KernelIdeal.ValueP Cert.RowMoments

variable (m : (ℓ : Loc nD τ sig) → Buf (Elt Ideal) ℓ) (ρ : Dev nD → PrngReg)

/-- Entry `n` of row `r` of quantity `k` (nothing past the row's end): the row's sum is over `range 16384` of these. -/
def rowEntry (X : (⟨2, ![4096, 16384]⟩ : Shape).Idx → EReal) (A B : (⟨2, ![4096, 1]⟩ : Shape).Idx → EReal) (k : Fin 6)
    (r : Fin 4096) (n : ℕ) : EReal :=
  if h : n < 16384 then elt k (A (ix2 r (0 : Fin 1))) (X (ix2 r ⟨n, h⟩)) (B (ix2 r (0 : Fin 1))) else 0

/-- The addend of point 8 q + s at row p: the sum of row 256 q + p's entries in column tile s. -/
theorem addend_tile (c : Dev nD) (k : Fin 6) (q s : ℕ) (hq : q < 16) (hs : s < 8) (p : Fin 256) (u : Fin 1) (r : Fin 4096)
    (hr : r.val = 256 * q + p.val) :
    addend m c k (8 * q + s) (ix2 p u)
      = ∑ cc ∈ Finset.range 2048, rowEntry (m ((c : Thread nD τ).loc main_arg0)) (m ((c : Thread nD τ).loc main_arg1))
          (m ((c : Thread nD τ).loc main_arg2)) k r (2048 * s + cc) := by
  have hN : 8 * q + s < cfg0.N := by rw [show cfg0.N = 128 from N_0]; omega
  rw [addend_eq m c k _ hN, ← Fin.sum_univ_eq_sum_range (fun cc => rowEntry (m ((c : Thread nD τ).loc main_arg0))
    (m ((c : Thread nD τ).loc main_arg1)) (m ((c : Thread nD τ).loc main_arg2)) k r (2048 * s + cc)) 2048]
  unfold tileSum
  refine Finset.sum_congr rfl fun qq _ => ?_
  have hqq : qq.val < 2048 := qq.isLt
  have hk : 2048 * s + qq.val < 16384 := by omega
  unfold rowEntry
  rw [dif_pos hk, ablk_apply m c ⟨8 * q + s, hN⟩ p 0 r (by show r.val = 256 * ((8 * q + s) / 8) + p.val; omega),
    bblk_apply m c ⟨8 * q + s, hN⟩ p 0 r (by show r.val = 256 * ((8 * q + s) / 8) + p.val; omega),
    xblk_apply m c ⟨8 * q + s, hN⟩ p qq r ⟨2048 * s + qq.val, hk⟩
      (by show r.val = 256 * ((8 * q + s) / 8) + p.val; omega)
      (by show 2048 * s + qq.val = 2048 * ((8 * q + s) % 8) + qq.val; omega)]

/-- An accumulator that holds the zero word plus its run's eight addends, scaled by 2^-14, is the row's mean. -/
theorem mean_of_acc (c : Dev nD) (k : Fin 6) (q : ℕ) (hq : q < 16) (p : Fin 256) (u : Fin 1) (r : Fin 4096)
    (hr : r.val = 256 * q + p.val) :
    (zer + ∑ s ∈ Finset.range 8, addend m c k (8 * q + s) (ix2 p u)) * invCols
      = rowMean k (m ((c : Thread nD τ).loc main_arg0)) (m ((c : Thread nD τ).loc main_arg1))
          (m ((c : Thread nD τ).loc main_arg2)) r := by
  rw [Finset.sum_congr rfl fun s hs => addend_tile m c k q s hq (Finset.mem_range.mp hs) p u r hr]
  rw [tiled_mean_eq (rowEntry (m ((c : Thread nD τ).loc main_arg0)) (m ((c : Thread nD τ).loc main_arg1))
    (m ((c : Thread nD τ).loc main_arg2)) k r)]
  unfold rowMean rowEntry
  rw [Finset.sum_fin_eq_sum_range]

/-- Local names for the five argument arrays on core `c`. -/
abbrev argX (c : Dev nD) : (⟨2, ![4096, 16384]⟩ : Shape).Idx → EReal := m ((c : Thread nD τ).loc main_arg0)
abbrev argA (c : Dev nD) : (⟨2, ![4096, 1]⟩ : Shape).Idx → EReal := m ((c : Thread nD τ).loc main_arg1)
abbrev argB (c : Dev nD) : (⟨2, ![4096, 1]⟩ : Shape).Idx → EReal := m ((c : Thread nD τ).loc main_arg2)
abbrev argMean (c : Dev nD) : (⟨2, ![4096, 1]⟩ : Shape).Idx → EReal := m ((c : Thread nD τ).loc main_arg3)
abbrev argVar (c : Dev nD) : (⟨2, ![4096, 1]⟩ : Shape).Idx → EReal := m ((c : Thread nD τ).loc main_arg4)

/-- Accumulator contents at a run's last point, scaled: the row's mean. -/
theorem scaled_acc (c : Dev nD) (k : Fin 6) (t : Fin cfg0.N) (h7 : t.val % 8 = 7) (p : Fin 256) (u : Fin 1) (r : Fin 4096)
    (hr : r.val = 256 * (t.val / 8) + p.val) (v : EReal)
    (hv : v = zer + ∑ s ∈ Finset.range (t.val % 8 + 1), addend m c k (8 * (t.val / 8) + s) (ix2 p u)) :
    v * invCols = rowMean k (argX m c) (argA m c) (argB m c) r := by
  have hN : t.val < 128 := lt_of_lt_of_eq t.isLt (show cfg0.N = 128 from N_0)
  rw [hv, h7]
  exact mean_of_acc m c k (t.val / 8) (by omega) p u r hr

/-- The first result block at a run's last point, entry by entry: `resA` at the row the entry is written to. -/
theorem outA_entry (c : Dev nD) (t : Fin cfg0.N) (h0 : ¬t.val % 8 = 0) (h7 : t.val % 8 = 7) (y : S256x1.Idx)
    (i : S4096x1.Idx) (hi : (i 0).val = 256 * (t.val / 8) + (y 0).val) :
    (outsAt0 m c t.val t.isLt).1 y = resA (argX m c) (argA m c) (argB m c) (argMean m c) (argVar m c) i := by
  obtain ⟨p, u, rfl⟩ : ∃ (p : Fin 256) (u : Fin 1), y = ix2 p u := ⟨y 0, y 1, eq_ix2 y⟩
  rw [outA_block m c t h0 h7, epiA_apply]
  unfold resA outA
  rw [scaled_acc m c 0 t h7 p u (i 0) hi _ (acc0_at m c t (ix2 p u)),
    scaled_acc m c 1 t h7 p u (i 0) hi _ (acc1_at m c t (ix2 p u)),
    scaled_acc m c 3 t h7 p u (i 0) hi _ (acc3_at m c t (ix2 p u)),
    scaled_acc m c 4 t h7 p u (i 0) hi _ (acc4_at m c t (ix2 p u)),
    meanblk_apply m c t p u (i 0) hi, varblk_apply m c t p u (i 0) hi]

/-- The second likewise. -/
theorem outB_entry (c : Dev nD) (t : Fin cfg0.N) (h0 : ¬t.val % 8 = 0) (h7 : t.val % 8 = 7) (y : S256x1.Idx)
    (i : S4096x1.Idx) (hi : (i 0).val = 256 * (t.val / 8) + (y 0).val) :
    (outsAt0 m c t.val t.isLt).2.1 y = resB (argX m c) (argA m c) (argB m c) (argMean m c) (argVar m c) i := by
  obtain ⟨p, u, rfl⟩ : ∃ (p : Fin 256) (u : Fin 1), y = ix2 p u := ⟨y 0, y 1, eq_ix2 y⟩
  rw [outB_block m c t h0 h7, epiB_apply]
  unfold resB outB
  rw [scaled_acc m c 0 t h7 p u (i 0) hi _ (acc0_at m c t (ix2 p u)),
    scaled_acc m c 2 t h7 p u (i 0) hi _ (acc2_at m c t (ix2 p u)),
    scaled_acc m c 3 t h7 p u (i 0) hi _ (acc3_at m c t (ix2 p u)),
    scaled_acc m c 5 t h7 p u (i 0) hi _ (acc5_at m c t (ix2 p u)),
    meanblk_apply m c t p u (i 0) hi, varblk_apply m c t p u (i 0) hi]

/-- What a last point writes back to the first result is its block of `resA`. -/
theorem flushedA_eq (c : Dev nD) (t : Fin cfg0.N) (hf : (cfg0.win 5).flush t = true) :
    (dats m 0 c).flushed 5 t
      = ((cfg0.win 5).blk t).view.read (Elt Ideal) (resA (argX m c) (argA m c) (argB m c) (argMean m c) (argVar m c)) := by
  have h7 : t.val % 8 = 7 := (flush0_5 t).mp hf
  have h0 : ¬t.val % 8 = 0 := by omega
  rw [flushed5]
  funext j
  refine outA_entry m c t h0 h7 j _ ?_
  show win0_5.index t 0 * 256 + 1 * (j 0).val = 256 * (t.val / 8) + (j 0).val
  rw [(index_outA t).1]; omega

theorem flushedB_eq (c : Dev nD) (t : Fin cfg0.N) (hf : (cfg0.win 6).flush t = true) :
    (dats m 0 c).flushed 6 t
      = ((cfg0.win 6).blk t).view.read (Elt Ideal) (resB (argX m c) (argA m c) (argB m c) (argMean m c) (argVar m c)) := by
  have h7 : t.val % 8 = 7 := (flush0_6 t).mp hf
  have h0 : ¬t.val % 8 = 0 := by omega
  rw [flushed6]
  funext j
  refine outB_entry m c t h0 h7 j _ ?_
  show win0_6.index t 0 * 256 + 1 * (j 0).val = 256 * (t.val / 8) + (j 0).val
  rw [(index_outB t).1]; omega

/-- Row `r` lies in the block the last point of row tile `r / 256` writes back. -/
theorem coverA (i : S4096x1.Idx) : ∃ t : Fin cfg0.N, (cfg0.win 5).flush t = true ∧ i ∈ ((cfg0.win 5).blk t).view.set := by
  have hi0 : (i 0).val < 4096 := (i 0).isLt
  have hi1 : (i 1).val < 1 := (i 1).isLt
  have hN : cfg0.N = 128 := N_0
  have hlt : 8 * ((i 0).val / 256) + 7 < cfg0.N := by rw [hN]; omega
  refine ⟨⟨8 * ((i 0).val / 256) + 7, hlt⟩, (flush0_5 _).mpr (by show (8 * ((i 0).val / 256) + 7) % 8 = 7; omega), ?_⟩
  show i ∈ ((View.whole main_v0_0).slice (win0_5.rect ⟨8 * ((i 0).val / 256) + 7, hlt⟩)).set
  rw [View.set_slice_whole, Rect.mem_set_unit]
  have hx := index_outA ⟨8 * ((i 0).val / 256) + 7, hlt⟩
  intro a
  match a with
  | ⟨0, _⟩ =>
    show win0_5.index ⟨8 * ((i 0).val / 256) + 7, hlt⟩ 0 * 256 ≤ (i 0).val
      ∧ (i 0).val < win0_5.index ⟨8 * ((i 0).val / 256) + 7, hlt⟩ 0 * 256 + 256
    rw [hx.1]; show ((8 * ((i 0).val / 256) + 7) / 8) * 256 ≤ (i 0).val ∧ (i 0).val < ((8 * ((i 0).val / 256) + 7) / 8) * 256 + 256
    omega
  | ⟨1, _⟩ =>
    show win0_5.index ⟨8 * ((i 0).val / 256) + 7, hlt⟩ 1 * 1 ≤ (i 1).val
      ∧ (i 1).val < win0_5.index ⟨8 * ((i 0).val / 256) + 7, hlt⟩ 1 * 1 + 1
    rw [hx.2]; omega

theorem coverB (i : S4096x1.Idx) : ∃ t : Fin cfg0.N, (cfg0.win 6).flush t = true ∧ i ∈ ((cfg0.win 6).blk t).view.set := by
  have hi0 : (i 0).val < 4096 := (i 0).isLt
  have hi1 : (i 1).val < 1 := (i 1).isLt
  have hN : cfg0.N = 128 := N_0
  have hlt : 8 * ((i 0).val / 256) + 7 < cfg0.N := by rw [hN]; omega
  refine ⟨⟨8 * ((i 0).val / 256) + 7, hlt⟩, (flush0_6 _).mpr (by show (8 * ((i 0).val / 256) + 7) % 8 = 7; omega), ?_⟩
  show i ∈ ((View.whole main_v0_1).slice (win0_6.rect ⟨8 * ((i 0).val / 256) + 7, hlt⟩)).set
  rw [View.set_slice_whole, Rect.mem_set_unit]
  have hx := index_outB ⟨8 * ((i 0).val / 256) + 7, hlt⟩
  intro a
  match a with
  | ⟨0, _⟩ =>
    show win0_6.index ⟨8 * ((i 0).val / 256) + 7, hlt⟩ 0 * 256 ≤ (i 0).val
      ∧ (i 0).val < win0_6.index ⟨8 * ((i 0).val / 256) + 7, hlt⟩ 0 * 256 + 256
    rw [hx.1]; show ((8 * ((i 0).val / 256) + 7) / 8) * 256 ≤ (i 0).val ∧ (i 0).val < ((8 * ((i 0).val / 256) + 7) / 8) * 256 + 256
    omega
  | ⟨1, _⟩ =>
    show win0_6.index ⟨8 * ((i 0).val / 256) + 7, hlt⟩ 1 * 1 ≤ (i 1).val
      ∧ (i 1).val < win0_6.index ⟨8 * ((i 0).val / 256) + 7, hlt⟩ 1 * 1 + 1
    rw [hx.2]; omega

/-- The result arrays after the run. -/
theorem finalA (c : Dev nD) :
    (dats m 0 c).arrAt 5 cfg0.N = resA (argX m c) (argA m c) (argB m c) (argMean m c) (argVar m c) :=
  (dats m 0 c).arrAt_eq_of_cover 5 _ (fun t hf => flushedA_eq m c t hf) coverA

theorem finalB (c : Dev nD) :
    (dats m 0 c).arrAt 6 cfg0.N = resB (argX m c) (argA m c) (argB m c) (argMean m c) (argVar m c) :=
  (dats m 0 c).arrAt_eq_of_cover 6 _ (fun t hf => flushedB_eq m c t hf) coverB

/-- The idealized kernel's run, read: the two results at `resA` and `resB` of the arguments, the arguments unchanged. -/
theorem run : θ_run defs (onTc (τ := τ) (main (F := Ideal))) ⟨m, fun _ => 0, ρ⟩ fun r => ∀ c : Dev nD,
      r.2.mem ((c : Thread nD τ).loc main_v0_0) = resA (argX m c) (argA m c) (argB m c) (argMean m c) (argVar m c)
      ∧ r.2.mem ((c : Thread nD τ).loc main_v0_1) = resB (argX m c) (argA m c) (argB m c) (argMean m c) (argVar m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (finalA m c), (h c).2.1.trans (finalB m c), (h c).2.2⟩)
    (run_blocks m ρ)

end Cert.KernelIdeal.TileValue

end
-- ==== Proof.RefValue.lean ====
/-
  The reference's two results are `resA` and `resB` of its arguments.

  Read operation by operation: the logistic value of a[r] * x[r,k] + b[r] at every entry, its derivative and the four
  products; each of the six summed over a row's columns from the zero word and divided by the word 16384 (`rowMean`);
  the two results assembled from the means and the rows' `mean` and `var` entries (`grad`).
-/
import proofs.«129264_j5420248727614_1_alg».proof.Proof.Gen.ReferenceIdeal.Read
import proofs.«129264_j5420248727614_1_alg».proof.Proof.Spec

noncomputable section

namespace Cert.ReferenceIdeal.RefValue

open Idealize.ShloMosaic Idealize.ShloMosaic.ValueIdx
open Cert.ReferenceIdeal Cert.ReferenceIdeal.Read Cert.RowMoments

variable (X : (⟨S4096x16384, .f32⟩ : BufTy).Contents (Elt Ideal))
variable (A B MU VR : (⟨S4096x1, .f32⟩ : BufTy).Contents (Elt Ideal))

/-- Where the broadcast of a column array reads it, at entry (r, k): row r. -/
theorem col_of_entry_a (r : Fin 4096) (k : Fin 16384) : idx_main_v0 (ix2 r k) = ix2 r (0 : Fin 1) :=
  funext fun a => Fin.ext (by match a with | ⟨0, _⟩ => rfl | ⟨1, _⟩ => rfl)
theorem col_of_entry_b (r : Fin 4096) (k : Fin 16384) : idx_main_v2 (ix2 r k) = ix2 r (0 : Fin 1) :=
  funext fun a => Fin.ext (by match a with | ⟨0, _⟩ => rfl | ⟨1, _⟩ => rfl)

/-- The logistic value at entry (r, k). -/
theorem logistic_at (r : Fin 4096) (k : Fin 16384) :
    val_main_v9 (F := Ideal) X A B (ix2 r k) = sg (A (ix2 r (0 : Fin 1))) (X (ix2 r k)) (B (ix2 r (0 : Fin 1))) := by
  simp only [val_main_v9_apply, val_main_v8_apply, val_main_cst_0_apply, val_main_v7_apply, val_main_v6_apply,
    val_main_cst_apply, val_main_v5_apply, val_main_v4_apply, val_main_v3_apply, val_main_v1_apply, val_main_v0_apply,
    val_main_v2_apply, col_of_entry_a, col_of_entry_b]
  rfl

/-- Its derivative at entry (r, k). -/
theorem deriv_at (r : Fin 4096) (k : Fin 16384) :
    val_main_v12 (F := Ideal) X A B (ix2 r k) = sp (A (ix2 r (0 : Fin 1))) (X (ix2 r k)) (B (ix2 r (0 : Fin 1))) := by
  simp only [val_main_v12_apply, val_main_v11_apply, val_main_v10_apply, val_main_cst_1_apply, logistic_at]
  rfl

/-- The six summed quantities at entry (r, k). -/
theorem elt0_at (r : Fin 4096) (k : Fin 16384) :
    val_main_v9 (F := Ideal) X A B (ix2 r k) = elt 0 (A (ix2 r (0 : Fin 1))) (X (ix2 r k)) (B (ix2 r (0 : Fin 1))) :=
  logistic_at X A B r k
theorem elt1_at (r : Fin 4096) (k : Fin 16384) :
    val_main_v13 (F := Ideal) X A B (ix2 r k) = elt 1 (A (ix2 r (0 : Fin 1))) (X (ix2 r k)) (B (ix2 r (0 : Fin 1))) := by
  simp only [val_main_v13_apply, deriv_at]; rfl
theorem elt2_at (r : Fin 4096) (k : Fin 16384) :
    val_main_v12 (F := Ideal) X A B (ix2 r k) = elt 2 (A (ix2 r (0 : Fin 1))) (X (ix2 r k)) (B (ix2 r (0 : Fin 1))) :=
  deriv_at X A B r k
theorem elt3_at (r : Fin 4096) (k : Fin 16384) :
    val_main_v27 (F := Ideal) X A B (ix2 r k) = elt 3 (A (ix2 r (0 : Fin 1))) (X (ix2 r k)) (B (ix2 r (0 : Fin 1))) := by
  simp only [val_main_v27_apply, logistic_at]; rfl
theorem elt4_at (r : Fin 4096) (k : Fin 16384) :
    val_main_v35 (F := Ideal) X A B (ix2 r k) = elt 4 (A (ix2 r (0 : Fin 1))) (X (ix2 r k)) (B (ix2 r (0 : Fin 1))) := by
  simp only [val_main_v35_apply, val_main_v13_apply, logistic_at, deriv_at]; rfl
theorem elt5_at (r : Fin 4096) (k : Fin 16384) :
    val_main_v44 (F := Ideal) X A B (ix2 r k) = elt 5 (A (ix2 r (0 : Fin 1))) (X (ix2 r k)) (B (ix2 r (0 : Fin 1))) := by
  simp only [val_main_v44_apply, logistic_at, deriv_at]; rfl

/-- Where a row sum reads its operand: result row r, summation index k, is entry (r, k). -/
theorem entry_of_row (r : Fin 4096) (u : Fin 1) (k : Fin 16384) : idx_main_v14 (idx_main_v15 (ix2 r u)) k = ix2 r k :=
  funext fun a => Fin.ext (by match a with | ⟨0, _⟩ => rfl | ⟨1, _⟩ => rfl)

/-- The six row means at row r. -/
theorem mean0_at (r : Fin 4096) (u : Fin 1) : val_main_v17 (F := Ideal) X A B (ix2 r u) = rowMean 0 X A B r := by
  simp only [val_main_v17_apply, val_main_v16_apply, val_main_cst_3_apply, val_main_v15_apply, val_main_v14_apply,
    val_main_cst_2_apply]
  unfold rowMean
  exact congrArg (fun s => Ideal.div (zer + s) cols)
    (Finset.sum_congr rfl fun k _ => (congrArg _ (entry_of_row r u k)).trans (elt0_at X A B r k))
theorem mean1_at (r : Fin 4096) (u : Fin 1) : val_main_v22 (F := Ideal) X A B (ix2 r u) = rowMean 1 X A B r := by
  simp only [val_main_v22_apply, val_main_v21_apply, val_main_cst_5_apply, val_main_v20_apply, val_main_v19_apply,
    val_main_cst_4_apply]
  unfold rowMean
  exact congrArg (fun s => Ideal.div (zer + s) cols)
    (Finset.sum_congr rfl fun k _ => (congrArg _ (entry_of_row r u k)).trans (elt1_at X A B r k))
theorem mean2_at (r : Fin 4096) (u : Fin 1) : val_main_v26 (F := Ideal) X A B (ix2 r u) = rowMean 2 X A B r := by
  simp only [val_main_v26_apply, val_main_v25_apply, val_main_cst_7_apply, val_main_v24_apply, val_main_v23_apply,
    val_main_cst_6_apply]
  unfold rowMean
  exact congrArg (fun s => Ideal.div (zer + s) cols)
    (Finset.sum_congr rfl fun k _ => (congrArg _ (entry_of_row r u k)).trans (elt2_at X A B r k))
theorem mean3_at (r : Fin 4096) (u : Fin 1) : val_main_v31 (F := Ideal) X A B (ix2 r u) = rowMean 3 X A B r := by
  simp only [val_main_v31_apply, val_main_v30_apply, val_main_cst_9_apply, val_main_v29_apply, val_main_v28_apply,
    val_main_cst_8_apply]
  unfold rowMean
  exact congrArg (fun s => Ideal.div (zer + s) cols)
    (Finset.sum_congr rfl fun k _ => (congrArg _ (entry_of_row r u k)).trans (elt3_at X A B r k))
theorem mean4_at (r : Fin 4096) (u : Fin 1) : val_main_v39 (F := Ideal) X A B (ix2 r u) = rowMean 4 X A B r := by
  simp only [val_main_v39_apply, val_main_v38_apply, val_main_cst_11_apply, val_main_v37_apply, val_main_v36_apply,
    val_main_cst_10_apply]
  unfold rowMean
  exact congrArg (fun s => Ideal.div (zer + s) cols)
    (Finset.sum_congr rfl fun k _ => (congrArg _ (entry_of_row r u k)).trans (elt4_at X A B r k))
theorem mean5_at (r : Fin 4096) (u : Fin 1) : val_main_v48 (F := Ideal) X A B (ix2 r u) = rowMean 5 X A B r := by
  simp only [val_main_v48_apply, val_main_v47_apply, val_main_cst_14_apply, val_main_v46_apply, val_main_v45_apply,
    val_main_cst_13_apply]
  unfold rowMean
  exact congrArg (fun s => Ideal.div (zer + s) cols)
    (Finset.sum_congr rfl fun k _ => (congrArg _ (entry_of_row r u k)).trans (elt5_at X A B r k))

/-- The first result is `resA`. -/
theorem first_eq : val_main_v57 (F := Ideal) X A B MU VR = resA X A B MU VR := by
  funext i
  obtain ⟨r, u, rfl⟩ : ∃ (r : Fin 4096) (u : Fin 1), i = ix2 r u := ⟨i 0, i 1, eq_ix2 i⟩
  have hu : ix2 r u = ix2 r (0 : Fin 1) := by
    have : u = 0 := Subsingleton.elim _ _
    rw [this]
  simp only [val_main_v57_apply, val_main_v56_apply, val_main_cst_16_apply, val_main_v55_apply, val_main_v54_apply,
    val_main_v53_apply, val_main_v43_apply, val_main_v42_apply, val_main_cst_12_apply, val_main_v41_apply,
    val_main_v40_apply, val_main_v34_apply, val_main_v33_apply, val_main_v32_apply, val_main_v18_apply,
    mean0_at, mean1_at, mean3_at, mean4_at]
  rw [hu]
  rfl

/-- The second result is `resB`. -/
theorem second_eq : val_main_v62 (F := Ideal) X A B MU VR = resB X A B MU VR := by
  funext i
  obtain ⟨r, u, rfl⟩ : ∃ (r : Fin 4096) (u : Fin 1), i = ix2 r u := ⟨i 0, i 1, eq_ix2 i⟩
  have hu : ix2 r u = ix2 r (0 : Fin 1) := by
    have : u = 0 := Subsingleton.elim _ _
    rw [this]
  simp only [val_main_v62_apply, val_main_v61_apply, val_main_cst_17_apply, val_main_v60_apply, val_main_v59_apply,
    val_main_v58_apply, val_main_v52_apply, val_main_v51_apply, val_main_cst_15_apply, val_main_v50_apply,
    val_main_v49_apply, val_main_v34_apply, val_main_v33_apply, val_main_v32_apply, val_main_v18_apply,
    mean0_at, mean2_at, mean3_at, mean5_at]
  rw [hu]
  rfl

end Cert.ReferenceIdeal.RefValue

end
-- ==== Proof.lean ====
/-
  The certificate of the row-moment gradient kernel against its jnp reference.

  Both programs compute, for each of 4096 rows, two gradients from six means over the row's 16384 columns of quantities built
  on the logistic value of a[r] * x[r,k] + b[r] (Proof/Spec.lean: `resA`, `resB`).  The kernel walks each row tile through
  eight column tiles, accumulating row sums from zero and scaling by 2^-14 at the last; the reference sums whole rows and
  divides by 16384.  Over the extended reals the two agree entry by entry: a sum may be taken tile by tile, and dividing by
  16384 is multiplying by 2^-14 (Proof/RowMoments.lean).  Proof/RefValue.lean reads the reference's operations as `resA` and
  `resB`; Proof/KernelValue.lean reads the kernel's run as the same two functions.  The frames are the programs' runs with the
  results dropped; the ideal pass rewrote nothing, so `preserves` is trivial.
-/
import proofs.«129264_j5420248727614_1_alg».proof.Defs
import proofs.«129264_j5420248727614_1_alg».proof.Proof.Gen.Kernel
import proofs.«129264_j5420248727614_1_alg».proof.Proof.KernelFrameP
import proofs.«129264_j5420248727614_1_alg».proof.Proof.Gen.KernelIdeal
import proofs.«129264_j5420248727614_1_alg».proof.Proof.KernelIdealFrameP
import proofs.«129264_j5420248727614_1_alg».proof.Proof.Gen.ReferenceIdeal
import proofs.«129264_j5420248727614_1_alg».proof.Proof.Gen.Pre_finite_inputs
import proofs.«129264_j5420248727614_1_alg».proof.Proof.Gen.ReferenceIdeal.Run
import proofs.«129264_j5420248727614_1_alg».proof.Proof.Gen.ReferenceIdeal.Read
import proofs.«129264_j5420248727614_1_alg».proof.Proof.KernelValue
import proofs.«129264_j5420248727614_1_alg».proof.Proof.RefValue
import Idealize.ShloMosaic.Adequacy
import Idealize.ShloMosaic.Init

noncomputable section

namespace Cert.Proof

open Idealize.ShloMosaic Idealize.SL.Sem

theorem frame_kernel : Cert.frame_Kernel :=
  fun m ρ _ => Cert.Kernel.GenP.frame m ρ

theorem frame_kernelIdeal : Cert.frame_KernelIdeal :=
  fun m ρ _ => Cert.KernelIdeal.GenP.frame m ρ

theorem frame_referenceIdeal : Cert.frame_ReferenceIdeal :=
  fun m ρ _ => (θ_run Cert.ReferenceIdeal.defs _ _).mono (fun _ h c => (h c).2.2)
    (Cert.ReferenceIdeal.Value.run (F := Ideal) m ρ)

/-- Both programs end with `resA` and `resB` of arguments that agree. -/
theorem algebraic : Cert.algebraic_KernelIdeal_ReferenceIdeal := by
  intro m ρ m' ρ' _ hagree
  refine ⟨_, _, Cert.KernelIdeal.TileValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v57_eq, Cert.ReferenceIdeal.RefValue.first_eq, (hagree c).1, (hagree c).2.1,
      (hagree c).2.2.1, (hagree c).2.2.2.1, (hagree c).2.2.2.2]
  · rw [Cert.ReferenceIdeal.Read.val_main_v62_eq, Cert.ReferenceIdeal.RefValue.second_eq, (hagree c).1, (hagree c).2.1,
      (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
